-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S512x6400 : Shape := ⟨2, ![512, 6400]⟩
abbrev S512x1 : Shape := ⟨2, ![512, 1]⟩
abbrev S512x1280 : Shape := ⟨2, ![512, 1280]⟩
abbrev S512 : Shape := ⟨1, ![512]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x6400, .f32⟩
  | .local _ .vmem, ⟨1, _⟩ => ⟨S512x6400, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

@[reducible] def k0_t1_loop : Scf.Loop 32 :=
  let c0_i32_10 : BitVec 32 := 0#32
  let c5_i32 : BitVec 32 := 5#32
  let v11 : BitVec 32 := Scalar.addi c0_i32_10 c5_i32
  let c1_i32 : BitVec 32 := 1#32
  ⟨c0_i32_10, v11, c1_i32⟩
def k0_mult1 (k0_t1 : Fin k0_t1_loop.trips) : BitVec 32 :=
  let c0_i32_10 : BitVec 32 := 0#32
  let c1_i32 : BitVec 32 := 1#32
  let arg9 : BitVec 32 := Scf.iv c0_i32_10 c1_i32 k0_t1
  let c1280_i32 : BitVec 32 := 1280#32
  let v28 : BitVec 32 := Scalar.muli arg9 c1280_i32
  v28
def k0_off1 (k0_t1 : Fin k0_t1_loop.trips) : Fin 2 → Nat :=
  let c0_21 : Index := 0#32
  let c0_i32_10 : BitVec 32 := 0#32
  let c1_i32 : BitVec 32 := 1#32
  let arg9 : BitVec 32 := Scf.iv c0_i32_10 c1_i32 k0_t1
  let c1280_i32 : BitVec 32 := 1280#32
  let v28 : BitVec 32 := Scalar.muli arg9 c1280_i32
  let v29 : BitVec 32 := v28
  let v30 : Index := Scalar.indexCast v29
  ![0, v30.toNat]
def k0_cond2 (i : grid0.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1280_d1_w32 : S512x1280.Iotas .tc 32 [1]
  h_S512x1280 : 0 < S512x1280.numel
  broadcasts_S512x1_S512x1280 : S512x1.Broadcasts S512x1280
  reduces_S512x1280_S512 : S512x1280.Reduces [1] S512
  shapeCasts_S512_S512x1 : S512.ShapeCasts S512x1
  reducesTo_S8192x1_S_d0_1 : S8192x1.ReducesTo [0, 1] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S512x1280.size a ≤ S512x6400.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S8192x32000.size a
  hwx0_0 : ∀ i : grid0.Coords, EltTy.bits .f32 = 32 ∨ (Rect.block (s := S8192x32000) S512x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x2 : Shape := ⟨2, ![8192, 2]⟩

abbrev nBuf : Space → Nat
  | .hbm => 58
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x32000, .f32⟩
  | .hbm, ⟨9, _⟩ => ⟨S8192x32000, .f32⟩
  | .hbm, ⟨10, _⟩ => ⟨S8192x32000, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x32000, .f32⟩
  | .hbm, ⟨16, _⟩ => ⟨S8192x32000, .f32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x1, .i32⟩
  | .hbm, ⟨34, _⟩ => ⟨S8192x2, .i32⟩
  | .hbm, ⟨35, _⟩ => ⟨S8192, .f32⟩
  | .hbm, ⟨36, _⟩ => ⟨S8192, .f32⟩
  | .hbm, ⟨37, _⟩ => ⟨S8192x32000, .f32⟩
  | .hbm, ⟨38, _⟩ => ⟨S_, .f32⟩
  | .hbm, ⟨39, _⟩ => ⟨S8192x32000, .f32⟩
  | .hbm, ⟨40, _⟩ => ⟨S8192x32000, .f32⟩
  | .hbm, ⟨41, _⟩ => ⟨S8192x32000, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  concatenates_S8192x1_S8192x1_S8192x2_d1 : Shape.Concatenates [S8192x1, S8192x1] S8192x2 1
  bcast_S_S8192x32000 : S_.BroadcastsInDim S8192x32000 (![] : Fin 0 → Fin S8192x32000.rank)
  reducesTo_S8192_S_d0 : S8192.ReducesTo [0] S_
  gather_S8192x32000_S8192x2_S8192_n_01_n_n_01_1_11_wf : GatherDims.WF S8192x32000 S8192x2 S8192 [] [0, 1] [] [0, 1] [] 1 ![1, 1]

variable [Facts₀]

def gather_S8192x32000_S8192x2_S8192_n_01_n_n_01_1_11 : GatherDims S8192x32000 S8192x2 S8192 where
  offsetDims := []
  collapsedSliceDims := [0, 1]
  operandBatchingDims := []
  startIndicesBatchingDims := []
  startIndexMap := [0, 1]
  indexVectorDim := 1
  sliceSizes := ![1, 1]
  wf := gather_S8192x32000_S8192x2_S8192_n_01_n_n_01_1_11_wf

class Facts : Prop extends Facts₀ where

variable [Facts]
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.RefGather.lean ====
/-
  The reference's pick of the label's log-probability, read at a row.

  The reference indexes the [8192, 32000] array of log-probabilities with a pair (row, label) per row: the row
  number is r itself (an iota, wrapped if negative, which it never is), the label is wrapped if negative (a label in
  range is not), and the gather with both axes collapsed and slices of one element reads the array at (r, label r).
-/
import proofs.«408673_j82102594830633_3_alg».proof.Proof.RefReadPatched
import proofs.«408673_j82102594830633_3_alg».proof.Proof.LibRowOps
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefGather

open Idealize.ShloMosaic Idealize.ShloMosaic.ValueIdx Cert.ReferenceIdeal Cert.ReferenceIdeal.Gen Cert.ReferenceIdeal.PRead

/-- A small non-negative word, read signed and clamped below a bound it is under, is its value. -/
private theorem clamp_word (a n : ℕ) (ha : a ≤ n) (hn : n < 2 ^ 31) :
    min (BitVec.ofNat 32 a).toInt.toNat n = a := by
  rw [StableHlo.Predicate.toInt_ofNat_small a (by omega)]
  simp only [Int.toNat_natCast]
  exact Nat.min_eq_left ha

/-- The gather with both axes collapsed, over any operand and any index pairs: where row r's pair is the words of
    (r, t) with t a column in range, entry r is the operand at (r, t). -/
private theorem gather_pair {α : Type} (x : S8192x32000.Idx → α) (idx : IVec S8192x2 32) (r : Fin 8192) (t : Fin 32000)
    (h0 : idx (ix2 r (0 : Fin 2)) = BitVec.ofNat 32 r.val) (h1 : idx (ix2 r (1 : Fin 2)) = BitVec.ofNat 32 t.val) :
    Host.gather gather_S8192x32000_S8192x2_S8192_n_01_n_n_01_1_11 x idx (ix1 r) = x (ix2 r t) := by
  unfold Host.gather
  congr 1
  funext a
  refine Fin.ext ?_
  match a with
  | ⟨0, _⟩ =>
    show gather_S8192x32000_S8192x2_S8192_n_01_n_n_01_1_11.start (ix1 r) idx 0
      + gather_S8192x32000_S8192x2_S8192_n_01_n_n_01_1_11.batchCoord (ix1 r) 0
      + gather_S8192x32000_S8192x2_S8192_n_01_n_n_01_1_11.offCoord (ix1 r) 0 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x32000_S8192x2_S8192_n_01_n_n_01_1_11.startIndexMap by decide)]
    have hsi : gather_S8192x32000_S8192x2_S8192_n_01_n_n_01_1_11.siIdx (ix1 r)
        ⟨List.idxOf (0 : Fin 2) gather_S8192x32000_S8192x2_S8192_n_01_n_n_01_1_11.startIndexMap,
          List.idxOf_lt_length_iff.2 (by decide)⟩ = ix2 r (0 : Fin 2) := by
      funext b; refine Fin.ext ?_
      match b with
      | ⟨0, _⟩ => rfl
      | ⟨1, _⟩ => rfl
    rw [hsi, h0]
    exact clamp_word r.val (8192 - 1) (by omega) (by norm_num)
  | ⟨1, _⟩ =>
    show gather_S8192x32000_S8192x2_S8192_n_01_n_n_01_1_11.start (ix1 r) idx 1
      + gather_S8192x32000_S8192x2_S8192_n_01_n_n_01_1_11.batchCoord (ix1 r) 1
      + gather_S8192x32000_S8192x2_S8192_n_01_n_n_01_1_11.offCoord (ix1 r) 1 = t.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x32000_S8192x2_S8192_n_01_n_n_01_1_11.startIndexMap by decide)]
    have hsi : gather_S8192x32000_S8192x2_S8192_n_01_n_n_01_1_11.siIdx (ix1 r)
        ⟨List.idxOf (1 : Fin 2) gather_S8192x32000_S8192x2_S8192_n_01_n_n_01_1_11.startIndexMap,
          List.idxOf_lt_length_iff.2 (by decide)⟩ = ix2 r (1 : Fin 2) := by
      funext b; refine Fin.ext ?_
      match b with
      | ⟨0, _⟩ => rfl
      | ⟨1, _⟩ => rfl
    rw [hsi, h1]
    exact clamp_word t.val (32000 - 1) (by omega) (by norm_num)

/-- The wrap of a negative index leaves a small non-negative word alone: it is not below zero as a signed word. -/
private theorem select_nonneg (a : ℕ) (ha : a < 2 ^ 31) (w : BitVec 32) :
    Scalar.select (IntOp.cmpi .slt (BitVec.ofNat 32 a) 0#32) w (BitVec.ofNat 32 a) = BitVec.ofNat 32 a := by
  unfold Scalar.select
  rw [if_neg]
  intro h
  have h' := (StableHlo.Predicate.slt_iff_toNat (a := BitVec.ofNat 32 a) (b := 0#32)
    (by rw [BitVec.toNat_ofNat]; omega) (by decide)).mp h
  exact absurd h' (by simp)

/-- The row number after its wrap is the word of r. -/
private theorem row_word (r : Fin 8192) : val_main_v6 (F := Ideal) (ix1 r) = BitVec.ofNat 32 r.val := by
  rw [val_main_v6_apply, val_main_v3_apply, val_main_v1_apply, val_main_v2_apply, val_main_c_apply]
  exact select_nonneg r.val (by omega) _

/-- A label in range after its wrap is its own word. -/
private theorem label_word (x1 : (⟨S8192, .i32⟩ : BufTy).Contents (Elt Ideal)) (t : ℕ) (ht : t < 32000) (r : Fin 8192)
    (hx : x1 (ix1 r) = BitVec.ofNat 32 t) : val_main_v11 (F := Ideal) x1 (ix1 r) = BitVec.ofNat 32 t := by
  rw [val_main_v11_apply, val_main_v8_apply, val_main_v7_apply, val_main_c_1_apply, hx]
  exact select_nonneg t (by omega) _

/-- The index pairs: row r's pair is (the word of r, the word of its label). -/
private theorem pair_left (x1 : (⟨S8192, .i32⟩ : BufTy).Contents (Elt Ideal)) (r : Fin 8192) :
    val_main_v14 (F := Ideal) x1 (ix2 r (0 : Fin 2)) = BitVec.ofNat 32 r.val := by
  unfold val_main_v14
  refine (Cert.RowOps.concat_cols_left _ _ _ r).trans ?_
  rw [val_main_v12_apply]
  have hi : idx_main_v12 (ix2 r (0 : Fin 1)) = ix1 r := by
    funext a; match a with | ⟨0, _⟩ => rfl
  rw [hi]
  exact row_word r

private theorem pair_right (x1 : (⟨S8192, .i32⟩ : BufTy).Contents (Elt Ideal)) (t : ℕ) (ht : t < 32000) (r : Fin 8192)
    (hx : x1 (ix1 r) = BitVec.ofNat 32 t) :
    val_main_v14 (F := Ideal) x1 (ix2 r (1 : Fin 2)) = BitVec.ofNat 32 t := by
  unfold val_main_v14
  refine (Cert.RowOps.concat_cols_right _ _ _ r).trans ?_
  rw [val_main_v13_apply]
  have hi : idx_main_v13 (ix2 r (0 : Fin 1)) = ix1 r := by
    funext a; match a with | ⟨0, _⟩ => rfl
  rw [hi]
  exact label_word x1 t ht r hx

/-- With every label in range, the gathered entry of row r is the log-probability array at (r, label r). -/
theorem gather_row (x0 : (⟨S8192x32000, .f32⟩ : BufTy).Contents (Elt Ideal)) (x1 : (⟨S8192, .i32⟩ : BufTy).Contents (Elt Ideal))
    (T : Fin 8192 → ℕ) (hT : ∀ r : Fin 8192, T r < 32000 ∧ x1 (ix1 r) = BitVec.ofNat 32 (T r)) (r : Fin 8192) :
    val_main_v15 (F := Ideal) x0 x1 (ix1 r)
      = val_main_v0 (F := Ideal) x0 (ix2 r (⟨T r, (hT r).1⟩ : Fin 32000)) := by
  unfold val_main_v15
  generalize val_main_v0 (F := Ideal) x0 = y
  exact gather_pair y (val_main_v14 (F := Ideal) x1) r ⟨T r, (hT r).1⟩ (pair_left x1 r)
    (pair_right x1 (T r) (hT r).1 r (hT r).2)

end Cert.ReferenceIdeal.RefGather

end
-- ==== Proof.Spec.lean ====
/-
  The per-row loss of the punitive cross-entropy, over the reals.

  For a row of n real logits x and a label t the loss is
      -(x t - Z) + w · ((n - 2 + Σ_c p_c²) - (1 - p_t)²),   Z = log Σ_c exp (x c),  p_c = exp (x c - Z).
  Two ways of arriving at it are related to this closed form here.

  * A single pass over the row keeps, relative to ANY real shift m, the two sums s1 = Σ exp (x c - m) and
    s2 = Σ exp (x c - m)².  Then m + log s1 = Z whatever m is, s2 / s1² = Σ p_c², and since the p_c sum to one,
    Σ_c (1 - p_c)² = n - 2 + Σ p_c²: the sum over the classes collapses to a number computed from (m, s1, s2).
    When the shift moves from m to m' the sums over a prefix are rescaled by exp (m - m') and exp (m - m')², and the
    new columns are added relative to m'.
  * The plain log-softmax shifts by the row's maximum M, and sums (1 - p_c)² class by class.
-/
import Mathlib.Analysis.SpecialFunctions.Log.Basic
import Mathlib.Analysis.SpecialFunctions.Exp
import Mathlib.Algebra.BigOperators.Fin
import Mathlib.Algebra.BigOperators.Intervals
import Mathlib.Algebra.BigOperators.Field

noncomputable section

namespace Punitive

open Finset

/-- The log-sum-exp of the first n entries of a row. -/
def lse (x : ℕ → ℝ) (n : ℕ) : ℝ := Real.log (∑ c ∈ range n, Real.exp (x c))

/-- The softmax probability of class c among the first n. -/
def prob (x : ℕ → ℝ) (n c : ℕ) : ℝ := Real.exp (x c - lse x n)

/-- The loss of one row with label t and weight w. -/
def rowLoss (w : ℝ) (x : ℕ → ℝ) (n t : ℕ) : ℝ :=
  -(x t - lse x n) + w * ((((n : ℝ) - 2) + ∑ c ∈ range n, prob x n c * prob x n c)
    - (1 - prob x n t) * (1 - prob x n t))

theorem sum_exp_pos (x : ℕ → ℝ) {n : ℕ} (hn : 0 < n) : 0 < ∑ c ∈ range n, Real.exp (x c) :=
  Finset.sum_pos (fun _ _ => Real.exp_pos _) ⟨0, mem_range.mpr hn⟩

/-- Shifting every logit by m scales the sum of exponentials by exp (-m). -/
theorem sum_exp_shift (x : ℕ → ℝ) (n : ℕ) (m : ℝ) :
    ∑ c ∈ range n, Real.exp (x c - m) = Real.exp (-m) * ∑ c ∈ range n, Real.exp (x c) := by
  rw [Finset.mul_sum]
  refine Finset.sum_congr rfl fun c _ => ?_
  rw [← Real.exp_add]; congr 1; ring

theorem sum_exp_shift_pos (x : ℕ → ℝ) {n : ℕ} (hn : 0 < n) (m : ℝ) : 0 < ∑ c ∈ range n, Real.exp (x c - m) :=
  Finset.sum_pos (fun _ _ => Real.exp_pos _) ⟨0, mem_range.mpr hn⟩

/-- The log-sum-exp does not depend on the shift. -/
theorem lse_shift (x : ℕ → ℝ) {n : ℕ} (hn : 0 < n) (m : ℝ) :
    m + Real.log (∑ c ∈ range n, Real.exp (x c - m)) = lse x n := by
  unfold lse
  rw [sum_exp_shift, Real.log_mul (Real.exp_ne_zero _) (sum_exp_pos x hn).ne', Real.log_exp]
  ring

/-- A probability is the shifted exponential over the shifted sum. -/
theorem prob_eq_div (x : ℕ → ℝ) {n : ℕ} (hn : 0 < n) (m : ℝ) (c : ℕ) :
    prob x n c = Real.exp (x c - m) / ∑ c' ∈ range n, Real.exp (x c' - m) := by
  unfold prob
  rw [← lse_shift x hn m, show x c - (m + Real.log (∑ c' ∈ range n, Real.exp (x c' - m)))
      = (x c - m) - Real.log (∑ c' ∈ range n, Real.exp (x c' - m)) by ring,
    Real.exp_sub, Real.exp_log (sum_exp_shift_pos x hn m)]

/-- The probabilities sum to one. -/
theorem sum_prob (x : ℕ → ℝ) {n : ℕ} (hn : 0 < n) : ∑ c ∈ range n, prob x n c = 1 := by
  simp only [prob_eq_div x hn 0]
  rw [← Finset.sum_div]
  exact div_self (sum_exp_shift_pos x hn 0).ne'

/-- The sum over the classes of (1 - p)² is n - 2 + Σ p². -/
theorem sum_one_sub_sq (x : ℕ → ℝ) {n : ℕ} (hn : 0 < n) :
    ∑ c ∈ range n, (1 - prob x n c) * (1 - prob x n c)
      = ((n : ℝ) - 2) + ∑ c ∈ range n, prob x n c * prob x n c := by
  have h : ∀ c ∈ range n, (1 - prob x n c) * (1 - prob x n c)
      = (1 - 2 * prob x n c) + prob x n c * prob x n c := fun c _ => by ring
  rw [Finset.sum_congr rfl h, Finset.sum_add_distrib, Finset.sum_sub_distrib, ← Finset.mul_sum, sum_prob x hn,
    Finset.sum_const, card_range, nsmul_eq_mul, mul_one]
  ring

/-- The ratio of the two running sums is the sum of the squared probabilities. -/
theorem s2_ratio (x : ℕ → ℝ) {n : ℕ} (hn : 0 < n) (m : ℝ) :
    (∑ c ∈ range n, Real.exp (x c - m) * Real.exp (x c - m))
        / ((∑ c ∈ range n, Real.exp (x c - m)) * (∑ c ∈ range n, Real.exp (x c - m)))
      = ∑ c ∈ range n, prob x n c * prob x n c := by
  rw [Finset.sum_div]
  refine Finset.sum_congr rfl fun c _ => ?_
  rw [prob_eq_div x hn m c, div_mul_div_comm]

/-- What the single pass computes from (m, s1, s2) and the label's logit is the row loss. -/
theorem onepass_final (w : ℝ) (x : ℕ → ℝ) {n : ℕ} (hn : 0 < n) (t : ℕ) (m s1 s2 tg : ℝ)
    (h1 : s1 = ∑ c ∈ range n, Real.exp (x c - m))
    (h2 : s2 = ∑ c ∈ range n, Real.exp (x c - m) * Real.exp (x c - m))
    (ht : tg = x t) :
    (0 - (tg - (m + Real.log s1))) + w * ((((n : ℝ) - 2) + s2 / (s1 * s1))
        - (1 - Real.exp (tg - (m + Real.log s1))) * (1 - Real.exp (tg - (m + Real.log s1))))
      = rowLoss w x n t := by
  subst h1 h2 ht
  rw [lse_shift x hn m, s2_ratio x hn m]
  unfold rowLoss prob
  ring

/-- What the plain log-softmax computes, shifted by any M, class by class, is the row loss. -/
theorem plain_final (w : ℝ) (x : ℕ → ℝ) {n : ℕ} (hn : 0 < n) (t : ℕ) (M : ℝ) :
    -((x t - M) - Real.log (∑ c ∈ range n, Real.exp (x c - M)))
        + w * ((0 + ∑ c ∈ range n, (1 - Real.exp ((x c - M) - Real.log (∑ c' ∈ range n, Real.exp (x c' - M))))
              * (1 - Real.exp ((x c - M) - Real.log (∑ c' ∈ range n, Real.exp (x c' - M)))))
          - (1 - Real.exp ((x t - M) - Real.log (∑ c ∈ range n, Real.exp (x c - M))))
            * (1 - Real.exp ((x t - M) - Real.log (∑ c ∈ range n, Real.exp (x c - M)))))
      = rowLoss w x n t := by
  have hl : ∀ c : ℕ, (x c - M) - Real.log (∑ c' ∈ range n, Real.exp (x c' - M)) = x c - lse x n := fun c => by
    rw [← lse_shift x hn M]; ring
  simp only [hl]
  rw [zero_add]
  have hs := sum_one_sub_sq x hn
  unfold prob at hs
  rw [hs]
  unfold rowLoss prob
  ring

/-! ### One more block of columns -/

/-- Moving the shift from m to m' rescales the prefix's sum of exponentials; the new block is added relative to m'. -/
theorem step_s1 (x : ℕ → ℝ) (n B : ℕ) (m m' : ℝ) :
    Real.exp (m - m') * (∑ c ∈ range n, Real.exp (x c - m)) + ∑ q : Fin B, Real.exp (x (n + q.val) - m')
      = ∑ c ∈ range (n + B), Real.exp (x c - m') := by
  rw [Finset.sum_range_add, Finset.mul_sum, Fin.sum_univ_eq_sum_range (fun q => Real.exp (x (n + q) - m')) B]
  congr 1
  refine Finset.sum_congr rfl fun c _ => ?_
  rw [← Real.exp_add]; congr 1; ring

/-- The same for the sum of squared exponentials, rescaled by the square. -/
theorem step_s2 (x : ℕ → ℝ) (n B : ℕ) (m m' : ℝ) :
    (Real.exp (m - m') * Real.exp (m - m')) * (∑ c ∈ range n, Real.exp (x c - m) * Real.exp (x c - m))
        + ∑ q : Fin B, Real.exp (x (n + q.val) - m') * Real.exp (x (n + q.val) - m')
      = ∑ c ∈ range (n + B), Real.exp (x c - m') * Real.exp (x c - m') := by
  rw [Finset.sum_range_add, Finset.mul_sum,
    Fin.sum_univ_eq_sum_range (fun q => Real.exp (x (n + q) - m') * Real.exp (x (n + q) - m')) B]
  congr 1
  refine Finset.sum_congr rfl fun c _ => ?_
  have h : Real.exp (x c - m') = Real.exp (m - m') * Real.exp (x c - m) := by
    rw [← Real.exp_add]; congr 1; ring
  rw [h]; ring

/-- The label's logit picked out of a prefix, one more block. -/
theorem step_tg (x : ℕ → ℝ) (n B t : ℕ) :
    (∑ c ∈ range n, if c = t then x c else 0) + ∑ q : Fin B, (if n + q.val = t then x (n + q.val) else 0)
      = ∑ c ∈ range (n + B), if c = t then x c else 0 := by
  rw [Finset.sum_range_add, Fin.sum_univ_eq_sum_range (fun q => if n + q = t then x (n + q) else 0) B]

/-- Over the whole row the pick is the label's logit. -/
theorem tg_final (x : ℕ → ℝ) {n t : ℕ} (ht : t < n) : (∑ c ∈ range n, if c = t then x c else 0) = x t := by
  rw [Finset.sum_ite_eq' (range n) t x, if_pos (mem_range.mpr ht)]

end Punitive

end
-- ==== Proof.Consts.lean ====
/-
  The float words of the two programs as real numbers.

  Both programs multiply the punishment by the f32 word nearest to one tenth; it is a finite word, so it denotes a
  real number, called w01 here, and nothing more about its value is ever used: the same word stands on both sides.
  The other words are 0, 1, the class count less two (31998, an integer below 2^24 and so exact), the row count
  8192, and the finite stand-in the single pass starts its running shift from, which only has to be a real number.
-/
import Idealize.ShloMosaic.PureOps.Ideal

noncomputable section

namespace Punitive

open Idealize.ShloMosaic

/-- The real number the f32 word of one tenth denotes. -/
def w01 : ℝ := (Ideal.ofBits .f32 0x3DCCCCCD#32).toReal

theorem ofBits_w01 : Ideal.ofBits .f32 0x3DCCCCCD#32 = ((w01 : ℝ) : EReal) := by
  unfold w01
  have h : Ideal.ofBits .f32 0x3DCCCCCD#32 ≠ ⊤ ∧ Ideal.ofBits .f32 0x3DCCCCCD#32 ≠ ⊥ := by
    simp [Ideal.ofBits, Ideal.ieee, -EReal.coe_mul]
  exact (EReal.coe_toReal h.1 h.2).symm

/-- The real number the finite stand-in for minus infinity denotes. -/
def negBig : ℝ := (Ideal.ofBits .f32 0xFF333332#32).toReal

theorem ofBits_negBig : Ideal.ofBits .f32 0xFF333332#32 = ((negBig : ℝ) : EReal) := by
  unfold negBig
  have h : Ideal.ofBits .f32 0xFF333332#32 ≠ ⊤ ∧ Ideal.ofBits .f32 0xFF333332#32 ≠ ⊥ := by
    simp [Ideal.ofBits, Ideal.ieee, -EReal.coe_mul]
  exact (EReal.coe_toReal h.1 h.2).symm

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_31998 : Ideal.ofBits .f32 0x46F9FC00#32 = ((31998 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

end Punitive

end
-- ==== Proof.LibIdealReal.lean ====
/-
  Operations of the ideal instance on entries that are real numbers.

  At the ideal values a float is an extended real. When the entries in play are real numbers — every input finite,
  every count a natural number — each operation of a program is the real operation under the embedding `ℝ → EReal`:
  sums, quotients by a non-zero real, comparisons, a bit read as a float, a select on a decided bit. One lemma each,
  so that a program's value can be carried as the embedding of a real-valued expression.
-/
import Idealize.ShloMosaic.PureOps.Ideal
import Idealize.ShloMosaic.PureOps.Ideal.Laws

noncomputable section

namespace IdealReal

open Idealize.ShloMosaic
open scoped BigOperators

/-- The embedding of a finite sum of reals is the sum of the embeddings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, ← div_eq_mul_one_div]

/-- Comparisons of two reals at the ideal instance decide the real comparison. -/
theorem cmp_ogt_coe (a b : ℝ) : Ideal.cmp .ogt (a : EReal) (b : EReal) = BitVec.ofBool (decide (b < a)) := by
  simp only [Ideal.cmp, EReal.coe_lt_coe_iff]
theorem cmp_oge_coe (a b : ℝ) : Ideal.cmp .oge (a : EReal) (b : EReal) = BitVec.ofBool (decide (b ≤ a)) := by
  simp only [Ideal.cmp, EReal.coe_le_coe_iff]
theorem cmp_oeq_coe (a b : ℝ) : Ideal.cmp .oeq (a : EReal) (b : EReal) = BitVec.ofBool (decide (a = b)) := by
  simp only [Ideal.cmp, EReal.coe_eq_coe_iff]
theorem cmp_une_coe (a b : ℝ) : Ideal.cmp .une (a : EReal) (b : EReal) = BitVec.ofBool (decide (a ≠ b)) := by
  simp only [Ideal.cmp, ne_eq, EReal.coe_eq_coe_iff]

/-- The f32 patterns of 0, 1 and 1024 denote those reals. -/
theorem ofBits_zero_f32 : Ideal.ofBits .f32 0x00000000#32 = ((0 : ℝ) : EReal) := by
  simp [Ideal.ofBits, Ideal.ieee]
theorem ofBits_one_f32 : Ideal.ofBits .f32 0x3F800000#32 = ((1 : ℝ) : EReal) := by
  simp [Ideal.ofBits, Ideal.ieee, -EReal.coe_mul]; norm_num
theorem ofBits_1024_f32 : Ideal.ofBits .f32 0x44800000#32 = ((1024 : ℝ) : EReal) := by
  simp [Ideal.ofBits, Ideal.ieee, -EReal.coe_mul]; norm_num

/-- A decided bit widened to a word and read as a signed integer is 1 or 0. -/
theorem sitofp_setWidth_ofBool (p : Bool) :
    FloatOps.sitofp (F := Ideal) .f32 ((BitVec.ofBool p).setWidth 32) = (((if p then 1 else 0 : ℝ)) : EReal) := by
  cases p <;> simp [FloatOps.sitofp]
/-- A decided bit read as an unsigned integer is 1 or 0. -/
theorem uitofp_ofBool (p : Bool) :
    FloatOps.uitofp (F := Ideal) .f32 (BitVec.ofBool p) = (((if p then 1 else 0 : ℝ)) : EReal) := by
  cases p <;> simp [FloatOps.uitofp]
/-- A select on a decided bit is the `if`. -/
theorem select_ofBool {α : Type} (p : Bool) (a b : α) : Scalar.select (BitVec.ofBool p) a b = if p then a else b := by
  cases p <;> rfl

/-- The logistic function of a real: `1 / (1 + e^(-r))`, a real in (0, 1). -/
theorem logistic_coe (r : ℝ) : Ideal.logistic (r : EReal) = (((1 + Real.exp (-r))⁻¹ : ℝ) : EReal) := Ideal.logistic_coe r

end IdealReal

end
-- ==== Proof.LibOnlineSoftmax.lean ====
/-
  The online softmax against the plain one, over the extended reals.

  A row of real logits is cut into n blocks of B columns. The online softmax walks the blocks keeping the
  running maximum m and the running sum l of the exponentials relative to it; a new block with maximum m₀ moves
  the state to (max m m₀, exp (m - max m m₀) · l + Σ_q exp (s q - max m m₀)). The state before the first block is
  (-∞, 0). After the last block the state is (M, Σ exp (s - M)) with M the maximum of the whole row, so
  m + log l is the row's log-sum-exp, and the cross-entropy term read off it equals the one read off the
  plain log-softmax over all n · B columns.
-/
import Idealize.ShloMosaic.PureOps.Ideal
import Mathlib.Data.Finset.Fold
import Mathlib.Algebra.BigOperators.Fin
import Mathlib.Logic.Equiv.Fin.Basic
import Mathlib.Analysis.SpecialFunctions.Log.Basic
import Mathlib.Analysis.SpecialFunctions.Exp

noncomputable section

namespace OnlineSoftmax

open Idealize.ShloMosaic

/-! ### Coercion facts -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The maximum of a nonempty finite family of reals, folded from -∞ in the extended reals, is the real
    maximum of the family: it bounds the family, is attained, and is the fold's value. -/
theorem fold_max_real {N : ℕ} (hN : 0 < N) (f : Fin N → ℝ) :
    ∃ M : ℝ, (∀ j, f j ≤ M) ∧ (∃ j, f j = M) ∧
      Finset.univ.fold max (⊥ : EReal) (fun j => ((f j : ℝ) : EReal)) = (M : EReal) := by
  obtain ⟨j0, -, hj0⟩ := Finset.exists_max_image Finset.univ f ⟨⟨0, hN⟩, Finset.mem_univ _⟩
  refine ⟨f j0, fun j => hj0 j (Finset.mem_univ j), ⟨j0, rfl⟩, le_antisymm ?_ ?_⟩
  · rw [Finset.fold_max_le]
    exact ⟨bot_le, fun x _ => EReal.coe_le_coe_iff.mpr (hj0 x (Finset.mem_univ x))⟩
  · rw [Finset.le_fold_max]
    exact Or.inr ⟨j0, Finset.mem_univ _, le_rfl⟩

/-! ### The online softmax's state -/

/-- One step of the online softmax: the state (m, l) — the running maximum and the running sum of the
    exponentials relative to it — meets a block of B columns. The new maximum m' is the larger of m and the
    block's maximum; the old sum is rescaled by exp (m - m') and the block's exponentials relative to m' are
    added. -/
def upd {B : ℕ} (row : Fin B → EReal) (ml : EReal × EReal) : EReal × EReal :=
  let m' := max ml.1 (Finset.univ.fold max (⊥ : EReal) row)
  (m', Ideal.exp (ml.1 - m') * ml.2 + ∑ q, Ideal.exp (row q - m'))

/-- The online softmax's state after the first k blocks of the row s; before the first block it is
    (-∞, 0). -/
def acc {B : ℕ} (s : ℕ → Fin B → EReal) : ℕ → EReal × EReal
  | 0 => (⊥, 0)
  | k + 1 => upd (s k) (acc s k)

/-- The new running maximum of a step. -/
theorem upd_fst {B : ℕ} (row : Fin B → EReal) (ml : EReal × EReal) :
    (upd row ml).1 = max ml.1 (Finset.univ.fold max (⊥ : EReal) row) := rfl

/-- The new running sum of a step. -/
theorem upd_snd {B : ℕ} (row : Fin B → EReal) (ml : EReal × EReal) :
    (upd row ml).2 = Ideal.exp (ml.1 - (upd row ml).1) * ml.2 + ∑ q, Ideal.exp (row q - (upd row ml).1) := rfl

/-- The state before the first block. -/
theorem acc_zero {B : ℕ} (s : ℕ → Fin B → EReal) : acc s 0 = (⊥, 0) := rfl

/-- The state after one more block. -/
theorem acc_succ {B : ℕ} (s : ℕ → Fin B → EReal) (k : ℕ) : acc s (k + 1) = upd (s k) (acc s k) := rfl

/-- The exponentials of a real block relative to a real maximum sum to a real. -/
theorem sum_exp_coe {B : ℕ} (row : Fin B → ℝ) (M : ℝ) :
    ∑ q, Ideal.exp (((row q : ℝ) : EReal) - (M : EReal)) = ((∑ q, Real.exp (row q - M) : ℝ) : EReal) := by
  rw [coe_sum]
  refine Finset.sum_congr rfl fun q _ => ?_
  rw [← EReal.coe_sub, Ideal.exp_coe]

/-- After k ≥ 1 blocks of real logits the state is real: the running maximum is the maximum M of the logits
    seen so far (it bounds them and is attained) and the running sum is Σ exp (s - M) over them. -/
theorem acc_real {B : ℕ} (hB : 0 < B) (s : ℕ → Fin B → ℝ) (k : ℕ) (hk : 0 < k) :
    ∃ M : ℝ, (∀ j, j < k → ∀ q, s j q ≤ M) ∧ (∃ j, j < k ∧ ∃ q, s j q = M) ∧
      (acc (fun j q => ((s j q : ℝ) : EReal)) k).1 = (M : EReal) ∧
      (acc (fun j q => ((s j q : ℝ) : EReal)) k).2
        = ((∑ j ∈ Finset.range k, ∑ q, Real.exp (s j q - M) : ℝ) : EReal) := by
  obtain ⟨k, rfl⟩ : ∃ k', k = k' + 1 := ⟨k - 1, by omega⟩
  clear hk
  induction k with
  | zero =>
    obtain ⟨M, hle, ⟨q0, hq0⟩, hM⟩ := fold_max_real hB (s 0)
    have h1 : (acc (fun j q => ((s j q : ℝ) : EReal)) (0 + 1)).1 = (M : EReal) := by
      rw [acc_succ, upd_fst, acc_zero, hM]; exact max_eq_right bot_le
    refine ⟨M, ?_, ⟨0, Nat.zero_lt_one, q0, hq0⟩, h1, ?_⟩
    · intro j hj q
      obtain rfl : j = 0 := by omega
      exact hle q
    · have hu : (upd (fun q => ((s 0 q : ℝ) : EReal)) (acc (fun j q => ((s j q : ℝ) : EReal)) 0)).1
          = (M : EReal) := h1
      rw [acc_succ, upd_snd, hu, acc_zero, mul_zero, zero_add, sum_exp_coe, Finset.sum_range_one]
  | succ k ih =>
    obtain ⟨M, hle, ⟨j1, hj1, q1, hq1⟩, h1, h2⟩ := ih
    obtain ⟨Mk, hlek, ⟨q0, hq0⟩, hMk⟩ := fold_max_real hB (s (k + 1))
    have h1' : (acc (fun j q => ((s j q : ℝ) : EReal)) (k + 1 + 1)).1 = ((max M Mk : ℝ) : EReal) := by
      rw [acc_succ, upd_fst, h1, hMk, coe_max]
    refine ⟨max M Mk, ?_, ?_, h1', ?_⟩
    · intro j hj q
      rcases Nat.lt_succ_iff_lt_or_eq.mp hj with h | rfl
      · exact le_trans (hle j h q) (le_max_left _ _)
      · exact le_trans (hlek q) (le_max_right _ _)
    · rcases le_total M Mk with h | h
      · exact ⟨k + 1, Nat.lt_succ_self _, q0, by rw [hq0, max_eq_right h]⟩
      · exact ⟨j1, Nat.lt_succ_of_lt hj1, q1, by rw [hq1, max_eq_left h]⟩
    · have hu : (upd (fun q => ((s (k + 1) q : ℝ) : EReal))
          (acc (fun j q => ((s j q : ℝ) : EReal)) (k + 1))).1 = ((max M Mk : ℝ) : EReal) := h1'
      rw [acc_succ, upd_snd, hu, h1, h2, sum_exp_coe, ← EReal.coe_sub, Ideal.exp_coe,
        ← EReal.coe_mul, ← EReal.coe_add, Finset.sum_range_succ _ (k + 1), Finset.mul_sum]
      congr 2
      refine Finset.sum_congr rfl fun j _ => ?_
      rw [Finset.mul_sum]
      refine Finset.sum_congr rfl fun q _ => ?_
      rw [← Real.exp_add]
      congr 1
      ring

/-! ### The blocks of a row -/

/-- Column q of block j lies in the row: j · B + q < n · B for j < n. -/
theorem blk_lt {n B j : ℕ} (h : j < n) (q : Fin B) : j * B + q.val < n * B :=
  calc j * B + q.val < j * B + B := Nat.add_lt_add_left q.isLt _
    _ = (j + 1) * B := (Nat.succ_mul j B).symm
    _ ≤ n * B := Nat.mul_le_mul_right B h

/-- A sum over the n · B columns of a row is the sum over its n blocks of the sums over each block's B
    columns, column q of block j being column j · B + q. -/
theorem sum_blocks {n B : ℕ} (g : Fin (n * B) → ℝ) :
    ∑ j : Fin n, ∑ q : Fin B, g ⟨j.val * B + q.val, blk_lt j.isLt q⟩ = ∑ c : Fin (n * B), g c := by
  rw [← Fintype.sum_prod_type'
    (f := fun (j : Fin n) (q : Fin B) => g ⟨j.val * B + q.val, blk_lt j.isLt q⟩)]
  refine Fintype.sum_equiv finProdFinEquiv _ _ fun p => ?_
  congr 1
  apply Fin.ext
  simp [finProdFinEquiv, mul_comm, add_comm]

/-- The same with the blocks counted by a natural number below n and the row's columns read through a
    function F: the block-wise double sum of F over the row is the sum of F over all n · B columns. -/
theorem sum_range_blocks {n B : ℕ} (sf : Fin (n * B) → ℝ) (F : ℝ → ℝ) :
    ∑ j ∈ Finset.range n, ∑ q : Fin B, F (if h : j < n then sf ⟨j * B + q.val, blk_lt h q⟩ else 0)
      = ∑ c : Fin (n * B), F (sf c) := by
  rw [← sum_blocks (fun c => F (sf c)), ← Fin.sum_univ_eq_sum_range
    (fun j => ∑ q : Fin B, F (if h : j < n then sf ⟨j * B + q.val, blk_lt h q⟩ else 0)) n]
  refine Finset.sum_congr rfl fun j _ => Finset.sum_congr rfl fun q _ => ?_
  rw [dif_pos j.isLt]

/-! ### The cross-entropy term of a row -/

/-- The online softmax's final state over the n blocks of a row of n · B real logits sf (column q of block j
    is column j · B + q): the running maximum is the row's maximum M — it bounds the row, is attained, and is
    the value of the row's fold from -∞ — and the running sum is Σ_c exp (sf c - M) over all the columns. -/
theorem acc_row {n B : ℕ} (hn : 0 < n) (hB : 0 < B) (sf : Fin (n * B) → ℝ) :
    ∃ M : ℝ, (∀ c, sf c ≤ M) ∧ (∃ c, sf c = M) ∧
      Finset.univ.fold max (⊥ : EReal) (fun j => ((sf j : ℝ) : EReal)) = (M : EReal) ∧
      (acc (fun j (q : Fin B) =>
        (((if h : j < n then sf ⟨j * B + q.val, blk_lt h q⟩ else 0 : ℝ)) : EReal)) n).1 = (M : EReal) ∧
      (acc (fun j (q : Fin B) =>
        (((if h : j < n then sf ⟨j * B + q.val, blk_lt h q⟩ else 0 : ℝ)) : EReal)) n).2
          = ((∑ c, Real.exp (sf c - M) : ℝ) : EReal) := by
  obtain ⟨M, hMle, ⟨jM, hjM, qM, hqM⟩, ha1, ha2⟩ :=
    acc_real hB (fun j q => if h : j < n then sf ⟨j * B + q.val, blk_lt h q⟩ else 0) n hn
  obtain ⟨M', hM'le, ⟨c0, hc0⟩, hM'⟩ := fold_max_real (Nat.mul_pos hn hB) sf
  -- the blocks' maximum is the row's maximum
  have hMM : M' = M := by
    apply le_antisymm
    · rw [← hc0]
      have hdiv : c0.val / B < n := Nat.div_lt_of_lt_mul (lt_of_lt_of_eq c0.isLt (Nat.mul_comm n B))
      have hb : (if h : c0.val / B < n then
          sf ⟨c0.val / B * B + c0.val % B, blk_lt h ⟨c0.val % B, Nat.mod_lt _ hB⟩⟩ else 0) ≤ M :=
        hMle (c0.val / B) hdiv ⟨c0.val % B, Nat.mod_lt _ hB⟩
      rw [dif_pos hdiv] at hb
      have hc : (⟨c0.val / B * B + c0.val % B, blk_lt hdiv ⟨c0.val % B, Nat.mod_lt _ hB⟩⟩ : Fin (n * B))
          = c0 := Fin.ext (Nat.div_add_mod' _ _)
      rw [hc] at hb
      exact hb
    · rw [← hqM]
      show (if h : jM < n then sf ⟨jM * B + qM.val, blk_lt h qM⟩ else 0) ≤ M'
      rw [dif_pos hjM]
      exact hM'le _
  subst hMM
  refine ⟨M', hM'le, ⟨c0, hc0⟩, hM', ha1, ?_⟩
  -- the blocks' sum of exponentials is the row's
  rw [ha2, sum_range_blocks sf (fun x => Real.exp (x - M'))]

/-- The cross-entropy term of one row of n · B real logits sf with label weight lab at column i. On the left
    the row's log-sum-exp is m + log l for the online softmax's final state (m, l) over the n blocks of B
    columns (column q of block j is column j · B + q); on the right it is the plain log-softmax: the maximum
    Mref over all columns (folded from -∞), the logits shifted by it, and a sum over the columns in which only
    column i carries the label weight. The two are equal. -/
theorem row_loss {n B : ℕ} (hn : 0 < n) (hB : 0 < B) (sf : Fin (n * B) → ℝ) (lab : ℝ) (i : Fin (n * B)) :
    let sb : ℕ → Fin B → ℝ := fun j q => if h : j < n then sf ⟨j * B + q.val, blk_lt h q⟩ else 0
    let a := acc (fun j q => ((sb j q : ℝ) : EReal)) n
    let Mref : EReal := max ⊥ (Finset.univ.fold max (⊥ : EReal) (fun j => ((sf j : ℝ) : EReal)))
    (0 - (lab : EReal)) * (((sf i : ℝ) : EReal) - (a.1 + Ideal.log a.2))
      = (0 : EReal) + ∑ j : Fin (n * B), (-(if j = i then (lab : EReal) else 0)) *
          ((((sf j : ℝ) : EReal) - Mref) - Ideal.log ((0 : EReal) +
            ∑ j' : Fin (n * B), Ideal.exp (((sf j' : ℝ) : EReal) - Mref))) := by
  intro sb a Mref
  obtain ⟨M, -, -, hM, ha1, ha2⟩ := acc_row hn hB sf
  have hSpos : 0 < ∑ c, Real.exp (sf c - M) :=
    Finset.sum_pos (fun _ _ => Real.exp_pos _) ⟨i, Finset.mem_univ _⟩
  have ha1' : a.1 = (M : EReal) := ha1
  have ha2' : a.2 = ((∑ c, Real.exp (sf c - M) : ℝ) : EReal) := ha2
  have hMref : Mref = (M : EReal) := by
    show max ⊥ (Finset.univ.fold max (⊥ : EReal) (fun j => ((sf j : ℝ) : EReal))) = (M : EReal)
    rw [hM, max_eq_right bot_le]
  have hlog : Ideal.log ((∑ c, Real.exp (sf c - M) : ℝ) : EReal)
      = ((Real.log (∑ c, Real.exp (sf c - M)) : ℝ) : EReal) := by
    rw [Ideal.log_coe, if_neg (not_le.mpr hSpos)]
  rw [ha1', ha2', hMref, zero_add, zero_add, sum_exp_coe, hlog]
  refine Eq.trans ?_ (Finset.sum_eq_single i ?_ ?_).symm
  · have hr : sf i - (M + Real.log (∑ c, Real.exp (sf c - M)))
        = sf i - M - Real.log (∑ c, Real.exp (sf c - M)) := by ring
    rw [if_pos rfl, zero_sub, ← EReal.coe_add, ← EReal.coe_sub, ← EReal.coe_sub, ← EReal.coe_sub, hr]
  · intro j _ hji
    rw [if_neg hji, neg_zero, ← EReal.coe_sub, ← EReal.coe_sub, zero_mul]
  · intro h
    exact absurd (Finset.mem_univ i) h

end OnlineSoftmax
-- ==== Proof.RefRow.lean ====
/-
  The reference's loss of one row, over the extended reals.

  With real logits and a label in range, the plain log-softmax of row r shifts by the row's maximum M (a real, folded
  from minus infinity), the log-probability of class c is (x c - M) - log Σ exp (x c' - M), and the row's value before
  the mean is -(lp t) + w · ((0 + Σ_c (1 - exp (lp c))²) - (1 - exp (lp t))²): the row loss.
-/
import proofs.«408673_j82102594830633_3_alg».proof.Proof.RefGather
import proofs.«408673_j82102594830633_3_alg».proof.Proof.Spec
import proofs.«408673_j82102594830633_3_alg».proof.Proof.Consts
import proofs.«408673_j82102594830633_3_alg».proof.Proof.LibRowOps
import proofs.«408673_j82102594830633_3_alg».proof.Proof.LibIdealReal
import proofs.«408673_j82102594830633_3_alg».proof.Proof.LibOnlineSoftmax
import Idealize.ShloMosaic.PureOps.Ideal.Laws

noncomputable section

namespace Cert.ReferenceIdeal.RefRow

open Idealize.ShloMosaic Idealize.ShloMosaic.ValueIdx Cert.ReferenceIdeal Cert.ReferenceIdeal.Gen Cert.ReferenceIdeal.PRead Punitive

/-! ### The indices the layout stages read at, over row r -/

private theorem reduces_rows : S8192x32000.Reduces [1] S8192 := by decide

private theorem idx_v3_v4 (r : Fin 8192) (c : Fin 32000) :
    idx_main_call0_v3 (idx_main_call0_v4 (ix2 r c)) = ix1 r := by
  funext a; match a with | ⟨0, _⟩ => rfl

private theorem idx_v8_v10 (r : Fin 8192) (c : Fin 32000) :
    idx_main_call0_v8 (idx_main_call0_v10 (ix2 r c)) = ix1 r := by
  funext a; match a with | ⟨0, _⟩ => rfl

private theorem idx_v7 (r : Fin 8192) (k : Fin 32000) : idx_main_call0_v7 (ix1 r) k = ix2 r k := by
  funext a; match a with | ⟨0, _⟩ => rfl | ⟨1, _⟩ => rfl

private theorem idx_v25 (r : Fin 8192) (k : Fin 32000) : idx_main_v25 (ix1 r) k = ix2 r k := by
  funext a; match a with | ⟨0, _⟩ => rfl | ⟨1, _⟩ => rfl

/-! ### The row's maximum -/

/-- The maximum of row r, folded from minus infinity over real logits, is a real. -/
private theorem row_max (x0 : (⟨S8192x32000, .f32⟩ : BufTy).Contents (Elt Ideal)) (X : Fin 8192 → ℕ → ℝ)
    (hX : ∀ (r : Fin 8192) (c : Fin 32000), x0 (ix2 r c) = ((X r c.val : ℝ) : EReal)) (r : Fin 8192) :
    ∃ M : ℝ, val_main_call0_v0 (F := Ideal) x0 (ix1 r) = ((M : ℝ) : EReal) := by
  obtain ⟨M, -, -, hM⟩ := OnlineSoftmax.fold_max_real (by decide : 0 < 32000) (fun k : Fin 32000 => X r k.val)
  refine ⟨M, ?_⟩
  unfold val_main_call0_v0
  rw [Cert.RowOps.hostRowMax_apply x0 _ reducesTo_S8192x32000_S8192_d1 reduces_rows h_S_ r,
    val_main_call0_cst_apply, Ideal.ofBits_def, ofBits_negInf]
  simp only [hX r]
  exact hM

/-! ### The log-softmax of the row -/

/-- The row's logits less its maximum. -/
private theorem shifted (x0 : (⟨S8192x32000, .f32⟩ : BufTy).Contents (Elt Ideal)) (X : Fin 8192 → ℕ → ℝ)
    (hX : ∀ (r : Fin 8192) (c : Fin 32000), x0 (ix2 r c) = ((X r c.val : ℝ) : EReal)) (r : Fin 8192) (M : ℝ)
    (hM : val_main_call0_v0 (F := Ideal) x0 (ix1 r) = ((M : ℝ) : EReal)) (c : Fin 32000) :
    val_main_call0_v5 (F := Ideal) x0 (ix2 r c) = ((X r c.val - M : ℝ) : EReal) := by
  rw [val_main_call0_v5_apply, val_main_call0_v4_apply, val_main_call0_v3_apply, val_main_call0_v2_apply,
    val_main_call0_v1_apply, val_main_call0_cst_0_apply, idx_v3_v4, hM, hX, Ideal.ofBits_def, ofBits_negInf,
    Ideal.maximumf_def, Ideal.subf_def, max_eq_right bot_le, ← EReal.coe_sub]

/-- The sum of the exponentials of the shifted row. -/
private theorem sum_exp (x0 : (⟨S8192x32000, .f32⟩ : BufTy).Contents (Elt Ideal)) (X : Fin 8192 → ℕ → ℝ)
    (hX : ∀ (r : Fin 8192) (c : Fin 32000), x0 (ix2 r c) = ((X r c.val : ℝ) : EReal)) (r : Fin 8192) (M : ℝ)
    (hM : val_main_call0_v0 (F := Ideal) x0 (ix1 r) = ((M : ℝ) : EReal)) :
    val_main_call0_v7 (F := Ideal) x0 (ix1 r)
      = ((∑ c ∈ Finset.range 32000, Real.exp (X r c - M) : ℝ) : EReal) := by
  rw [val_main_call0_v7_apply, val_main_call0_cst_1_apply, Ideal.ofBits_def, ofBits_zero]
  simp only [val_main_call0_v6_apply, idx_v7, shifted x0 X hX r M hM, Ideal.hostUnary_exp_def, Ideal.exp_coe]
  rw [← IdealReal.coe_sum, ← EReal.coe_add, zero_add,
    Fin.sum_univ_eq_sum_range (fun c => Real.exp (X r c - M)) 32000]

/-- The log-probability of class c of row r. -/
private theorem log_prob (x0 : (⟨S8192x32000, .f32⟩ : BufTy).Contents (Elt Ideal)) (X : Fin 8192 → ℕ → ℝ)
    (hX : ∀ (r : Fin 8192) (c : Fin 32000), x0 (ix2 r c) = ((X r c.val : ℝ) : EReal)) (r : Fin 8192) (M : ℝ)
    (hM : val_main_call0_v0 (F := Ideal) x0 (ix1 r) = ((M : ℝ) : EReal)) (c : Fin 32000) :
    val_main_v0 (F := Ideal) x0 (ix2 r c)
      = (((X r c.val - M) - Real.log (∑ c' ∈ Finset.range 32000, Real.exp (X r c' - M)) : ℝ) : EReal) := by
  rw [val_main_v0_apply, val_main_call0_v10_apply, val_main_call0_v9_apply, val_main_call0_v8_apply, idx_v8_v10,
    sum_exp x0 X hX r M hM, shifted x0 X hX r M hM, Ideal.hostUnary_log_def, Ideal.log_coe,
    if_neg (not_le.mpr (sum_exp_shift_pos (X r) (by decide : 0 < 32000) M)), Ideal.subf_def, ← EReal.coe_sub]

/-! ### The punishment's terms -/

/-- The row's sum over the classes of (1 - p)². -/
private theorem sum_sq (x0 : (⟨S8192x32000, .f32⟩ : BufTy).Contents (Elt Ideal)) (X : Fin 8192 → ℕ → ℝ)
    (hX : ∀ (r : Fin 8192) (c : Fin 32000), x0 (ix2 r c) = ((X r c.val : ℝ) : EReal)) (r : Fin 8192) (M : ℝ)
    (hM : val_main_call0_v0 (F := Ideal) x0 (ix1 r) = ((M : ℝ) : EReal)) :
    val_main_v25 (F := Ideal) x0 (ix1 r)
      = ((0 + ∑ c ∈ Finset.range 32000,
          (1 - Real.exp ((X r c - M) - Real.log (∑ c' ∈ Finset.range 32000, Real.exp (X r c' - M))))
            * (1 - Real.exp ((X r c - M) - Real.log (∑ c' ∈ Finset.range 32000, Real.exp (X r c' - M)))) : ℝ) : EReal) := by
  rw [val_main_v25_apply, val_main_cst_4_apply, Ideal.ofBits_def, ofBits_zero]
  simp only [val_main_v20_apply, val_main_v19_apply, val_main_v18_apply, val_main_v17_apply, val_main_cst_apply, idx_v25,
    log_prob x0 X hX r M hM, Ideal.ofBits_def, ofBits_one, Ideal.hostUnary_exp_def, Ideal.exp_coe, Ideal.subf_def,
    Ideal.mulf_def, ← EReal.coe_sub, ← EReal.coe_mul]
  rw [← IdealReal.coe_sum, ← EReal.coe_add,
    Fin.sum_univ_eq_sum_range (fun c => (1 - Real.exp ((X r c - M) - Real.log (∑ c' ∈ Finset.range 32000, Real.exp (X r c' - M))))
            * (1 - Real.exp ((X r c - M) - Real.log (∑ c' ∈ Finset.range 32000, Real.exp (X r c' - M))))) 32000]

/-- The label's log-probability, picked out of the row. -/
private theorem picked (x0 : (⟨S8192x32000, .f32⟩ : BufTy).Contents (Elt Ideal)) (x1 : (⟨S8192, .i32⟩ : BufTy).Contents (Elt Ideal))
    (X : Fin 8192 → ℕ → ℝ) (T : Fin 8192 → ℕ)
    (hX : ∀ (r : Fin 8192) (c : Fin 32000), x0 (ix2 r c) = ((X r c.val : ℝ) : EReal))
    (hT : ∀ r : Fin 8192, T r < 32000 ∧ x1 (ix1 r) = BitVec.ofNat 32 (T r)) (r : Fin 8192) (M : ℝ)
    (hM : val_main_call0_v0 (F := Ideal) x0 (ix1 r) = ((M : ℝ) : EReal)) :
    val_main_v15 (F := Ideal) x0 x1 (ix1 r)
      = (((X r (T r) - M) - Real.log (∑ c' ∈ Finset.range 32000, Real.exp (X r c' - M)) : ℝ) : EReal) := by
  rw [Cert.ReferenceIdeal.RefGather.gather_row x0 x1 T hT r, log_prob x0 X hX r M hM]

/-- Row r of the reference's per-row loss (the array the mean is taken of) is the row loss of the row's logits and label. -/
theorem row_loss (x0 : (⟨S8192x32000, .f32⟩ : BufTy).Contents (Elt Ideal)) (x1 : (⟨S8192, .i32⟩ : BufTy).Contents (Elt Ideal))
    (X : Fin 8192 → ℕ → ℝ) (T : Fin 8192 → ℕ)
    (hX : ∀ (r : Fin 8192) (c : Fin 32000), x0 (ix2 r c) = ((X r c.val : ℝ) : EReal))
    (hT : ∀ r : Fin 8192, T r < 32000 ∧ x1 (ix1 r) = BitVec.ofNat 32 (T r)) (r : Fin 8192) :
    val_main_v29 (F := Ideal) x0 x1 (ix1 r) = ((rowLoss w01 (X r) 32000 (T r) : ℝ) : EReal) := by
  obtain ⟨M, hM⟩ := row_max x0 X hX r
  rw [val_main_v29_apply, val_main_v28_apply, val_main_v27_apply, val_main_cst_5_apply, val_main_v26_apply,
    val_main_v24_apply, val_main_v23_apply, val_main_v22_apply, val_main_cst_3_apply, val_main_v21_apply,
    val_main_v16_apply, sum_sq x0 X hX r M hM, picked x0 x1 X T hX hT r M hM, Ideal.ofBits_def, Ideal.ofBits_def,
    ofBits_w01, ofBits_one, Ideal.hostUnary_exp_def, Ideal.exp_coe, Ideal.hostNegf_def, Ideal.negf_def,
    Ideal.subf_def, Ideal.subf_def, Ideal.mulf_def, Ideal.mulf_def, Ideal.addf_def,
    ← EReal.coe_sub, ← EReal.coe_mul, ← EReal.coe_sub, ← EReal.coe_mul, ← EReal.coe_neg, ← EReal.coe_add,
    plain_final w01 (X r) (by decide : 0 < 32000) (T r) M]

end Cert.ReferenceIdeal.RefRow

end
-- ==== Proof.PreDecode.lean ====
/-
  What the precondition says of the inputs.

  The precondition is the conjunction of "every logit is finite" (|x| < +∞ everywhere) and "every label is in
  range" (0 ≤ label < 32000, signed, everywhere). Over the extended reals a finite logit is a real number; a signed
  32-bit word between 0 and 32000 is the word of a natural number below 32000.
-/
import proofs.«408673_j82102594830633_3_alg».proof.Pre_finite_inputs
import proofs.«408673_j82102594830633_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.PreDecode

open Idealize.ShloMosaic Idealize.ShloMosaic.ValueIdx Cert.Pre_finite_inputs

/-- The scalar shape has exactly one index. -/
private instance subsingleton_scalar_idx : Subsingleton S_.Idx := ⟨fun _ _ => funext fun d => d.elim0⟩

/-- A signed 32-bit word that is at least 0 and below 32000 is the word of a natural number below 32000. -/
private theorem word_decode (w : BitVec 32) (h0 : IntOp.cmpi .sge w 0#32 = 1#1)
    (h1 : IntOp.cmpi .slt w 32000#32 = 1#1) : ∃ t : ℕ, t < 32000 ∧ w = BitVec.ofNat 32 t := by
  rw [IntOp.cmpi_sge, show (0#32 : BitVec 32).toInt = 0 from by decide] at h0
  rw [IntOp.cmpi_slt, show (32000#32 : BitVec 32).toInt = 32000 from by decide] at h1
  have hpos : 2 * w.toNat < 2 ^ 32 := BitVec.toInt_pos_iff.1 h0
  rw [BitVec.toInt_eq_toNat_of_lt hpos] at h1
  refine ⟨w.toNat, by omega, ?_⟩
  apply BitVec.eq_of_toNat_eq
  rw [BitVec.toNat_ofNat]
  omega

/-- An extended real whose absolute value max(x, −x) is strictly below +∞ is a real number. -/
private theorem real_of_abs_lt_top (x : EReal)
    (h : Ideal.cmp .olt (max x (-x)) (Ideal.ofBits .f32 0x7F800000#32) = 1#1) : ∃ r : ℝ, x = ((r : ℝ) : EReal) := by
  have htop : Ideal.ofBits .f32 0x7F800000#32 = (⊤ : EReal) := by simp [Ideal.ofBits, Ideal.ieee]
  rw [htop] at h
  have hlt : max x (-x) < ⊤ := by
    simpa only [Ideal.cmp, StableHlo.Predicate.ofBool_eq_one_iff, decide_eq_true_eq] using h
  obtain ⟨h1, h2⟩ := max_lt_iff.1 hlt
  have hx_top : x ≠ ⊤ := ne_of_lt h1
  have hx_bot : x ≠ ⊥ := by
    rintro rfl
    simp at h2
  exact ⟨x.toReal, (EReal.coe_toReal hx_top hx_bot).symm⟩

/-- The precondition all ones: every logit is a real number and every label is the word of a natural number below 32000. -/
theorem decode [Cert.Pre_finite_inputs.Facts] (x0 : FVec Ideal S8192x32000 .f32) (x1 : IVec S8192 32)
    (h : Cert.Pre_finite_inputs.fn (F := Ideal) x0 x1 = fun _ => 1#1) :
    (∀ i : S8192x32000.Idx, ∃ r : ℝ, x0 i = ((r : ℝ) : EReal))
      ∧ (∀ i : S8192.Idx, ∃ t : ℕ, t < 32000 ∧ x1 i = BitVec.ofNat 32 t) := by
  have h0 : Cert.Pre_finite_inputs.fn (F := Ideal) x0 x1 ix0 = 1#1 := congrFun h ix0
  obtain ⟨h3, h9⟩ := IntOp.andi_eq_one.1 h0
  constructor
  · intro i
    exact real_of_abs_lt_top (x0 i) (Host.reduce_andi_all _ _ _ _ _ h3 i)
  · intro i
    obtain ⟨ha, hb⟩ := IntOp.andi_eq_one.1 (Host.reduce_andi_all _ _ _ _ _ h9 i)
    exact word_decode (x1 i) ha hb

end Cert.PreDecode

end
-- ==== Proof.KLoop.lean ====
/-
  The inner loop of the single pass as a fold.

  One column tile of 6400 columns is walked in five trips of 1280 columns. A trip reads its 1280 columns of the tile
  and moves the carried state (shift, sum of exponentials, sum of squares, picked logit) by the four trip functions;
  the loop's result is the five-fold iteration from the state the tile starts with. The trip's yield, which the frame
  proof only names, is opened here once and stated as those four functions of the trip's columns.
-/
import proofs.«408673_j82102594830633_3_alg».proof.Proof.Gen.KernelIdeal.Frame

set_option maxRecDepth 65536

noncomputable section

namespace Cert.KernelIdeal.KLoop

open Idealize.ShloMosaic Idealize.ShloMosaic.TcCoe Idealize.SL.Sem Cert.KernelIdeal Cert.KernelIdeal.Gen

variable {F : FTy → Type} [FloatOps F]

/-- The 1280 columns trip k reads of a [512, 6400] tile. -/
def chunk (x0 : Vec F S512x6400 .f32) (k : Fin k0_t1_loop.trips) : Vec F S512x1280 .f32 :=
  View.ld x0 (Rect.unit (s := S512x6400) (k0_off1 k) S512x1280.size (k0_off1_inb k))

/-- One trip on the carried state. -/
def tripF (i : grid0.Coords) (v3 : Vec F S512x1 .i32) (x0 : Vec F S512x6400 .f32) (k : Fin k0_t1_loop.trips)
    (acc : Vec F S512x1 .f32 × Vec F S512x1 .f32 × Vec F S512x1 .f32 × Vec F S512x1 .f32) : Vec F S512x1 .f32 × Vec F S512x1 .f32 × Vec F S512x1 .f32 × Vec F S512x1 .f32 :=
  (k0_pay7 acc.1 (chunk x0 k), k0_pay10 acc.1 acc.2.1 (chunk x0 k), k0_pay11 acc.1 acc.2.2.1 (chunk x0 k),
    k0_pay6 i v3 k acc.2.2.2 (chunk x0 k))

/-- The carried state before trip k, from the state the tile starts with. -/
def foldF (i : grid0.Coords) (v3 : Vec F S512x1 .i32) (x0 : Vec F S512x6400 .f32) (init : Vec F S512x1 .f32 × Vec F S512x1 .f32 × Vec F S512x1 .f32 × Vec F S512x1 .f32) : ℕ → Vec F S512x1 .f32 × Vec F S512x1 .f32 × Vec F S512x1 .f32 × Vec F S512x1 .f32
  | 0 => init
  | k + 1 => if h : k < k0_t1_loop.trips then tripF i v3 x0 ⟨k, h⟩ (foldF i v3 x0 init k) else foldF i v3 x0 init k

theorem foldF_succ (i : grid0.Coords) (v3 : Vec F S512x1 .i32) (x0 : Vec F S512x6400 .f32) (init : Vec F S512x1 .f32 × Vec F S512x1 .f32 × Vec F S512x1 .f32 × Vec F S512x1 .f32)
    (k : Fin k0_t1_loop.trips) :
    foldF i v3 x0 init (k.val + 1) = tripF i v3 x0 k (foldF i v3 x0 init k.val) := by
  rw [foldF]; exact dif_pos k.isLt

/-- The trip's yield is the four trip functions of the columns the trip reads. -/
theorem tripR_eq (𝒱 : Variants) (bd : Option 𝒱.V) (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (v3 : Vec F S512x1 .i32) (x0 : Vec F S512x6400 .f32)
    (k : Fin k0_t1_loop.trips) (acc : Vec F S512x1 .f32 × Vec F S512x1 .f32 × Vec F S512x1 .f32 × Vec F S512x1 .f32) :
    tripR_k0_t1 (F := F) 𝒱 c bd i arg2 harg2 arg3 harg3 arg4 harg4 arg5 harg5 arg6 harg6 arg7 harg7 arg8 harg8 v3 (harg2.unread x0) k acc = tripF i v3 x0 k acc := by
  unfold tripR_k0_t1 trip_k0_t1
  dsimp only
  simp only [View.readAt_eq_ld, harg2.read_unread]
  rfl

/-- The loop's carried state is the fold. -/
theorem st_eq (𝒱 : Variants) (bd : Option 𝒱.V) (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (v3 : Vec F S512x1 .i32) (x0 : Vec F S512x6400 .f32)
    (init : Vec F S512x1 .f32 × Vec F S512x1 .f32 × Vec F S512x1 .f32 × Vec F S512x1 .f32) (k : ℕ) :
    st_k0_t1 (F := F) 𝒱 c bd i arg2 harg2 arg3 harg3 arg4 harg4 arg5 harg5 arg6 harg6 arg7 harg7 arg8 harg8 v3 (harg2.unread x0) init k = foldF i v3 x0 init k := by
  induction k with
  | zero => rfl
  | succ k ih =>
    rw [st_k0_t1.eq_2, foldF]
    unfold st_k0_t1Step
    by_cases h : k < k0_t1_loop.trips
    · rw [dif_pos h, dif_pos h, tripR_eq, ih]
    · rw [dif_neg h, dif_neg h, ih]

/-- The loop makes five trips. -/
theorem trips_eq : k0_t1_loop.trips = 5 := by decide

end Cert.KernelIdeal.KLoop

end
-- ==== Proof.KFinal.lean ====
/-
  The single pass's closing arithmetic, and the values it starts from, at one row, over the extended reals.

  After the last column tile the kernel turns the carried state (shift m, sum of exponentials s1, sum of their squares
  s2, picked logit tg) into the row's loss: with logZ = m + log s1, the loss is (0 - (tg - logZ)) + w · ((31998 + s2 / s1²)
  - (1 - exp (tg - logZ))²). At the first column tile the state is reset to a finite shift and three zeros; the stores
  after the inner loop recast each column as itself.
-/
import proofs.«408673_j82102594830633_3_alg».proof.Proof.Gen.KernelIdeal.Skeleton
import proofs.«408673_j82102594830633_3_alg».proof.Proof.Spec
import proofs.«408673_j82102594830633_3_alg».proof.Proof.Consts
import proofs.«408673_j82102594830633_3_alg».proof.Proof.LibRowOps
import proofs.«408673_j82102594830633_3_alg».proof.Proof.LibIdealReal
import proofs.«408673_j82102594830633_3_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KFinal

open Idealize.ShloMosaic Idealize.ShloMosaic.ValueIdx Cert.KernelIdeal Cert.KernelIdeal.Gen Punitive

/-- The closing arithmetic at row p on a real state with a positive sum of exponentials. -/
theorem final_row (v28 v29 v32 v33 v34 v37 : Vec Ideal S512x1 .f32) (p : Fin 512) (m s1 s2 tg : ℝ) (hs1 : 0 < s1)
    (h28 : v28 (ix2 p (0 : Fin 1)) = ((m : ℝ) : EReal)) (h29 : v29 (ix2 p (0 : Fin 1)) = ((s1 : ℝ) : EReal))
    (h32 : v32 (ix2 p (0 : Fin 1)) = ((s2 : ℝ) : EReal)) (h33 : v33 (ix2 p (0 : Fin 1)) = ((s1 : ℝ) : EReal))
    (h34 : v34 (ix2 p (0 : Fin 1)) = ((s1 : ℝ) : EReal)) (h37 : v37 (ix2 p (0 : Fin 1)) = ((tg : ℝ) : EReal)) :
    k0_pay1 (F := Ideal) v28 v29 v32 v33 v34 v37 (ix2 p (0 : Fin 1))
      = (((0 - (tg - (m + Real.log s1))) + w01 * ((((32000 : ℕ) : ℝ) - 2 + s2 / (s1 * s1))
          - (1 - Real.exp (tg - (m + Real.log s1))) * (1 - Real.exp (tg - (m + Real.log s1)))) : ℝ) : EReal) := by
  have hlog : Ideal.log ((s1 : ℝ) : EReal) = ((Real.log s1 : ℝ) : EReal) := by
    rw [Ideal.log_coe, if_neg (not_le.mpr hs1)]
  have hss : s1 * s1 ≠ 0 := mul_ne_zero hs1.ne' hs1.ne'
  have e : k0_pay1 (F := Ideal) v28 v29 v32 v33 v34 v37 (ix2 p (0 : Fin 1))
      = (Ideal.ofBits .f32 0x00000000#32
            - (v37 (ix2 p (0 : Fin 1)) - (v28 (ix2 p (0 : Fin 1)) + Ideal.log (v29 (ix2 p (0 : Fin 1))))))
          + Ideal.ofBits .f32 0x3DCCCCCD#32
            * ((Ideal.ofBits .f32 0x46F9FC00#32
                  + Ideal.div (v32 (ix2 p (0 : Fin 1))) (v33 (ix2 p (0 : Fin 1)) * v34 (ix2 p (0 : Fin 1))))
                - (Ideal.ofBits .f32 0x3F800000#32
                      - Ideal.exp (v37 (ix2 p (0 : Fin 1))
                          - (v28 (ix2 p (0 : Fin 1)) + Ideal.log (v29 (ix2 p (0 : Fin 1))))))
                  * (Ideal.ofBits .f32 0x3F800000#32
                      - Ideal.exp (v37 (ix2 p (0 : Fin 1))
                          - (v28 (ix2 p (0 : Fin 1)) + Ideal.log (v29 (ix2 p (0 : Fin 1))))))) := rfl
  rw [e, h28, h29, h32, h33, h34, h37, hlog, ofBits_zero, ofBits_one, ofBits_31998, ofBits_w01,
    ← EReal.coe_mul s1 s1, IdealReal.div_coe_coe s2 (s1 * s1) hss, ← EReal.coe_add m, ← EReal.coe_sub tg,
    Ideal.exp_coe, ← EReal.coe_sub 0, ← EReal.coe_sub 1, ← EReal.coe_mul, ← EReal.coe_add (31998 : ℝ), ← EReal.coe_sub,
    ← EReal.coe_mul, ← EReal.coe_add]
  congr 1
  push_cast
  ring

/-- What the first column tile resets the state to: a real shift, and zeros. -/
theorem pay2_row (p : Fin 512) : k0_pay2 (F := Ideal) (ix2 p (0 : Fin 1)) = ((negBig : ℝ) : EReal) := by
  show shapeCast S512x1 (broadcast S512x1 (Ideal.ofBits .f32 0xFF333332#32)) shapeCasts_S512x1_S512x1 (ix2 p (0 : Fin 1)) = _
  rw [shapeCast_self, broadcast_apply, ofBits_negBig]
theorem pay3_row (p : Fin 512) : k0_pay3 (F := Ideal) (ix2 p (0 : Fin 1)) = ((0 : ℝ) : EReal) := by
  show shapeCast S512x1 (broadcast S512x1 (Ideal.ofBits .f32 0x00000000#32)) shapeCasts_S512x1_S512x1 (ix2 p (0 : Fin 1)) = _
  rw [shapeCast_self, broadcast_apply, ofBits_zero]
theorem pay4_row (p : Fin 512) : k0_pay4 (F := Ideal) (ix2 p (0 : Fin 1)) = ((0 : ℝ) : EReal) := by
  show shapeCast S512x1 (broadcast S512x1 (Ideal.ofBits .f32 0x00000000#32)) shapeCasts_S512x1_S512x1 (ix2 p (0 : Fin 1)) = _
  rw [shapeCast_self, broadcast_apply, ofBits_zero]
theorem pay5_row (p : Fin 512) : k0_pay5 (F := Ideal) (ix2 p (0 : Fin 1)) = ((0 : ℝ) : EReal) := by
  show shapeCast S512x1 (broadcast S512x1 (Ideal.ofBits .f32 0x00000000#32)) shapeCasts_S512x1_S512x1 (ix2 p (0 : Fin 1)) = _
  rw [shapeCast_self, broadcast_apply, ofBits_zero]

/-- The stores after the loop recast a column as itself. -/
theorem pay12_eq {F : FTy → Type} [FloatOps F] (v : Vec F S512x1 .f32) : k0_pay12 v = v := by
  show shapeCast S512x1 v shapeCasts_S512x1_S512x1 = v
  exact shapeCast_self v _
theorem pay13_eq {F : FTy → Type} [FloatOps F] (v : Vec F S512x1 .f32) : k0_pay13 v = v := by
  show shapeCast S512x1 v shapeCasts_S512x1_S512x1 = v
  exact shapeCast_self v _
theorem pay14_eq {F : FTy → Type} [FloatOps F] (v : Vec F S512x1 .f32) : k0_pay14 v = v := by
  show shapeCast S512x1 v shapeCasts_S512x1_S512x1 = v
  exact shapeCast_self v _
theorem pay15_eq {F : FTy → Type} [FloatOps F] (v : Vec F S512x1 .f32) : k0_pay15 v = v := by
  show shapeCast S512x1 v shapeCasts_S512x1_S512x1 = v
  exact shapeCast_self v _

end Cert.KernelIdeal.KFinal

end
-- ==== Proof.KPieces.lean ====
/-
  What each case of the kernel body leaves in the carried columns and in the output block.

  A grid point of the first column tile resets the four carried columns and then runs the five-trip loop from the
  reset values; a point of a later tile runs the loop from what the point before left; each stores the loop's four
  results back, whole. A point of the last tile then reads the four columns back and stores the closing arithmetic
  of them into the output block.
-/
import proofs.«408673_j82102594830633_3_alg».proof.Proof.Gen.KernelIdeal.Frame
import proofs.«408673_j82102594830633_3_alg».proof.Proof.KLoop
import proofs.«408673_j82102594830633_3_alg».proof.Proof.KFinal

set_option maxRecDepth 65536

noncomputable section

namespace Cert.KernelIdeal.KPieces

open Idealize.ShloMosaic Idealize.ShloMosaic.TcCoe Idealize.ShloMosaic.Tactic Idealize.SL.Sem
open Cert.KernelIdeal Cert.KernelIdeal.Gen Cert.KernelIdeal.KLoop Cert.KernelIdeal.KFinal

variable {F : FTy → Type} [FloatOps F]

/-- The zero offsets of a whole [512, 1] column. -/
theorem hz : (![0, 0] : Fin S512x1.rank → Nat) = fun _ => 0 := by
  funext a; fin_cases a <;> rfl

/-- The values the first column tile resets the carried columns to. -/
def reset : Vec F S512x1 .f32 × Vec F S512x1 .f32 × Vec F S512x1 .f32 × Vec F S512x1 .f32 := (k0_pay2, k0_pay3, k0_pay4, k0_pay5)

/-- Case A (first column tile), carried column 0: the loop's result from the reset values. -/
theorem soutA_0 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x6400 .f32) (x1 : Vec F S512x1 .i32) :
    sout0_A_0 c i arg2 harg2 arg3 harg3 arg4 harg4 arg5 harg5 arg6 harg6 arg7 harg7 arg8 harg8 hc0 hc1 x0 x1 = (foldF i x1 x0 (reset (F := F)) k0_t1_loop.trips).1 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay12_eq]
  rfl

/-- Case A (first column tile), carried column 1: the loop's result from the reset values. -/
theorem soutA_1 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x6400 .f32) (x1 : Vec F S512x1 .i32) :
    sout0_A_1 c i arg2 harg2 arg3 harg3 arg4 harg4 arg5 harg5 arg6 harg6 arg7 harg7 arg8 harg8 hc0 hc1 x0 x1 = (foldF i x1 x0 (reset (F := F)) k0_t1_loop.trips).2.1 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay13_eq]
  rfl

/-- Case A (first column tile), carried column 2: the loop's result from the reset values. -/
theorem soutA_2 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x6400 .f32) (x1 : Vec F S512x1 .i32) :
    sout0_A_2 c i arg2 harg2 arg3 harg3 arg4 harg4 arg5 harg5 arg6 harg6 arg7 harg7 arg8 harg8 hc0 hc1 x0 x1 = (foldF i x1 x0 (reset (F := F)) k0_t1_loop.trips).2.2.1 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay14_eq]
  rfl

/-- Case A (first column tile), carried column 3: the loop's result from the reset values. -/
theorem soutA_3 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : cond0_0 i) (hc1 : ¬cond0_1 i) (x0 : Vec F S512x6400 .f32) (x1 : Vec F S512x1 .i32) :
    sout0_A_3 c i arg2 harg2 arg3 harg3 arg4 harg4 arg5 harg5 arg6 harg6 arg7 harg7 arg8 harg8 hc0 hc1 x0 x1 = (foldF i x1 x0 (reset (F := F)) k0_t1_loop.trips).2.2.2 := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay15_eq]
  rfl

/-- Case B, carried column 0: the loop's result from what the point before left. -/
theorem soutB_0 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x6400 .f32) (x1 : Vec F S512x1 .i32)
    (xs0 xs1 xs2 xs3 : Vec F S512x1 .f32) :
    sout0_B_0 c i arg2 harg2 arg3 harg3 arg4 harg4 arg5 harg5 arg6 harg6 arg7 harg7 arg8 harg8 hc0 hc1 x0 x1 xs0 xs1 xs2 xs3
      = (foldF i x1 x0 (xs0, xs1, xs2, xs3) k0_t1_loop.trips).1 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay12_eq]

/-- Case B, carried column 1: the loop's result from what the point before left. -/
theorem soutB_1 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x6400 .f32) (x1 : Vec F S512x1 .i32)
    (xs0 xs1 xs2 xs3 : Vec F S512x1 .f32) :
    sout0_B_1 c i arg2 harg2 arg3 harg3 arg4 harg4 arg5 harg5 arg6 harg6 arg7 harg7 arg8 harg8 hc0 hc1 x0 x1 xs0 xs1 xs2 xs3
      = (foldF i x1 x0 (xs0, xs1, xs2, xs3) k0_t1_loop.trips).2.1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay13_eq]

/-- Case B, carried column 2: the loop's result from what the point before left. -/
theorem soutB_2 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x6400 .f32) (x1 : Vec F S512x1 .i32)
    (xs0 xs1 xs2 xs3 : Vec F S512x1 .f32) :
    sout0_B_2 c i arg2 harg2 arg3 harg3 arg4 harg4 arg5 harg5 arg6 harg6 arg7 harg7 arg8 harg8 hc0 hc1 x0 x1 xs0 xs1 xs2 xs3
      = (foldF i x1 x0 (xs0, xs1, xs2, xs3) k0_t1_loop.trips).2.2.1 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay14_eq]

/-- Case B, carried column 3: the loop's result from what the point before left. -/
theorem soutB_3 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : ¬cond0_1 i) (x0 : Vec F S512x6400 .f32) (x1 : Vec F S512x1 .i32)
    (xs0 xs1 xs2 xs3 : Vec F S512x1 .f32) :
    sout0_B_3 c i arg2 harg2 arg3 harg3 arg4 harg4 arg5 harg5 arg6 harg6 arg7 harg7 arg8 harg8 hc0 hc1 x0 x1 xs0 xs1 xs2 xs3
      = (foldF i x1 x0 (xs0, xs1, xs2, xs3) k0_t1_loop.trips).2.2.2 := by
  unfold sout0_B_3
  rw [View.read_writes_eq_canon _ _ _ (scover0_B_3 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay15_eq]

/-- Case C, carried column 0: the loop's result from what the point before left. -/
theorem soutC_0 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x6400 .f32) (x1 : Vec F S512x1 .i32)
    (xs0 xs1 xs2 xs3 : Vec F S512x1 .f32) :
    sout0_C_0 c i arg2 harg2 arg3 harg3 arg4 harg4 arg5 harg5 arg6 harg6 arg7 harg7 arg8 harg8 hc0 hc1 x0 x1 xs0 xs1 xs2 xs3
      = (foldF i x1 x0 (xs0, xs1, xs2, xs3) k0_t1_loop.trips).1 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay12_eq]

/-- Case C, carried column 1: the loop's result from what the point before left. -/
theorem soutC_1 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x6400 .f32) (x1 : Vec F S512x1 .i32)
    (xs0 xs1 xs2 xs3 : Vec F S512x1 .f32) :
    sout0_C_1 c i arg2 harg2 arg3 harg3 arg4 harg4 arg5 harg5 arg6 harg6 arg7 harg7 arg8 harg8 hc0 hc1 x0 x1 xs0 xs1 xs2 xs3
      = (foldF i x1 x0 (xs0, xs1, xs2, xs3) k0_t1_loop.trips).2.1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay13_eq]

/-- Case C, carried column 2: the loop's result from what the point before left. -/
theorem soutC_2 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x6400 .f32) (x1 : Vec F S512x1 .i32)
    (xs0 xs1 xs2 xs3 : Vec F S512x1 .f32) :
    sout0_C_2 c i arg2 harg2 arg3 harg3 arg4 harg4 arg5 harg5 arg6 harg6 arg7 harg7 arg8 harg8 hc0 hc1 x0 x1 xs0 xs1 xs2 xs3
      = (foldF i x1 x0 (xs0, xs1, xs2, xs3) k0_t1_loop.trips).2.2.1 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay14_eq]

/-- Case C, carried column 3: the loop's result from what the point before left. -/
theorem soutC_3 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x6400 .f32) (x1 : Vec F S512x1 .i32)
    (xs0 xs1 xs2 xs3 : Vec F S512x1 .f32) :
    sout0_C_3 c i arg2 harg2 arg3 harg3 arg4 harg4 arg5 harg5 arg6 harg6 arg7 harg7 arg8 harg8 hc0 hc1 x0 x1 xs0 xs1 xs2 xs3
      = (foldF i x1 x0 (xs0, xs1, xs2, xs3) k0_t1_loop.trips).2.2.2 := by
  unfold sout0_C_3
  rw [View.read_writes_eq_canon _ _ _ (scover0_C_3 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  rw [st_eq, pay15_eq]

/-- Case C (last column tile), the output block: the closing arithmetic of the loop's four results. -/
theorem outC_2 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (hc0 : ¬cond0_0 i) (hc1 : cond0_1 i) (x0 : Vec F S512x6400 .f32) (x1 : Vec F S512x1 .i32)
    (xs0 xs1 xs2 xs3 : Vec F S512x1 .f32) :
    out0_C_2 c i arg2 harg2 arg3 harg3 arg4 harg4 arg5 harg5 arg6 harg6 arg7 harg7 arg8 harg8 hc0 hc1 x0 x1 xs0 xs1 xs2 xs3
      = k0_pay1 (foldF i x1 x0 (xs0, xs1, xs2, xs3) k0_t1_loop.trips).1
          (foldF i x1 x0 (xs0, xs1, xs2, xs3) k0_t1_loop.trips).2.1
          (foldF i x1 x0 (xs0, xs1, xs2, xs3) k0_t1_loop.trips).2.2.1
          (foldF i x1 x0 (xs0, xs1, xs2, xs3) k0_t1_loop.trips).2.1
          (foldF i x1 x0 (xs0, xs1, xs2, xs3) k0_t1_loop.trips).2.1
          (foldF i x1 x0 (xs0, xs1, xs2, xs3) k0_t1_loop.trips).2.2.2 := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S512x1) hz]
  simp only [View.readAt_eq_ld, harg3.read_unread, harg5.read_unread, harg6.read_unread, harg7.read_unread, harg8.read_unread, View.ld_unit_zero (S := S512x1) hz,
    View.readCov_unit_zero (S := S512x1) _ hz]
  simp only [st_eq, pay12_eq, pay13_eq, pay14_eq, pay15_eq]

end Cert.KernelIdeal.KPieces

end
-- ==== Proof.KTrip.lean ====
/-
  The single pass's arithmetic at one row, over the extended reals.

  One trip of the kernel's inner loop meets a block of 1280 columns of the row block it holds. At a row p whose carried
  state (shift, sum of exponentials, sum of their squares, picked logit) is real and whose 1280 entries are real, the
  four values the trip yields are again real, and are the state moved to a new shift m': the sums rescaled and the new
  columns added, the pick extended by the one column (if any) that is the row's label.
-/
import proofs.«408673_j82102594830633_3_alg».proof.Proof.Gen.KernelIdeal.Skeleton
import proofs.«408673_j82102594830633_3_alg».proof.Proof.Spec
import proofs.«408673_j82102594830633_3_alg».proof.Proof.Consts
import proofs.«408673_j82102594830633_3_alg».proof.Proof.LibRowOps
import proofs.«408673_j82102594830633_3_alg».proof.Proof.LibIdealReal
import proofs.«408673_j82102594830633_3_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.KTrip

open Idealize.ShloMosaic Idealize.ShloMosaic.ValueIdx Cert.KernelIdeal Cert.KernelIdeal.Gen Punitive

/-- The new shift at row p: the larger of the old shift and the maximum of the block's row. -/
private theorem pay7_at (a0 : Vec Ideal S512x1 .f32) (blk : Vec Ideal S512x1280 .f32) (p : Fin 512) :
    k0_pay7 (F := Ideal) a0 blk (ix2 p (0 : Fin 1))
      = max (a0 (ix2 p (0 : Fin 1)))
          ((Finset.univ : Finset (Fin 1280)).fold max (⊥ : EReal) (fun q => blk (ix2 p q))) := by
  unfold k0_pay7
  dsimp only
  rw [maximumf_apply]
  refine congrArg (max _) ?_
  refine (Cert.RowOps.shapeCast_a_a1_apply _ _ p 0).trans ?_
  refine (Cert.RowOps.rowMax_apply _ _ _ _ _ p).trans ?_
  rw [Punitive.ofBits_negInf]

/-- The rescaling factor at row p: the exponential of the old shift less the new. -/
private theorem pay8_at (a0 : Vec Ideal S512x1 .f32) (blk : Vec Ideal S512x1280 .f32) (p : Fin 512) :
    k0_pay8 (F := Ideal) a0 blk (ix2 p (0 : Fin 1))
      = Ideal.exp (a0 (ix2 p (0 : Fin 1)) - k0_pay7 (F := Ideal) a0 blk (ix2 p (0 : Fin 1))) := rfl

/-- The block's exponentials at (p, q): of the entry less the row's new shift. -/
private theorem pay9_at (a0 : Vec Ideal S512x1 .f32) (blk : Vec Ideal S512x1280 .f32) (p : Fin 512) (q : Fin 1280) :
    k0_pay9 (F := Ideal) a0 blk (ix2 p q)
      = Ideal.exp (blk (ix2 p q) - k0_pay7 (F := Ideal) a0 blk (ix2 p (0 : Fin 1))) := by
  show Ideal.exp (blk (ix2 p q) - broadcastTo S512x1280 (k0_pay7 (F := Ideal) a0 blk) broadcasts_S512x1_S512x1280 (ix2 p q)) = _
  rw [Cert.RowOps.broadcastTo_a1_ab_apply (by decide) _ _ p q]

/-- The new sum of exponentials at row p. -/
private theorem pay10_at (a0 a1 : Vec Ideal S512x1 .f32) (blk : Vec Ideal S512x1280 .f32) (p : Fin 512) :
    k0_pay10 (F := Ideal) a0 a1 blk (ix2 p (0 : Fin 1))
      = k0_pay8 (F := Ideal) a0 blk (ix2 p (0 : Fin 1)) * a1 (ix2 p (0 : Fin 1))
          + ∑ q : Fin 1280, k0_pay9 (F := Ideal) a0 blk (ix2 p q) := by
  unfold k0_pay10
  dsimp only
  rw [addf_apply, mulf_apply]
  congr 1
  refine (Cert.RowOps.shapeCast_a_a1_apply _ _ p 0).trans ?_
  exact Cert.RowOps.rowSum_apply _ _ _ _ _ p

/-- The new sum of squared exponentials at row p. -/
private theorem pay11_at (a0 a2 : Vec Ideal S512x1 .f32) (blk : Vec Ideal S512x1280 .f32) (p : Fin 512) :
    k0_pay11 (F := Ideal) a0 a2 blk (ix2 p (0 : Fin 1))
      = (k0_pay8 (F := Ideal) a0 blk (ix2 p (0 : Fin 1)) * k0_pay8 (F := Ideal) a0 blk (ix2 p (0 : Fin 1)))
            * a2 (ix2 p (0 : Fin 1))
          + ∑ q : Fin 1280, k0_pay9 (F := Ideal) a0 blk (ix2 p q) * k0_pay9 (F := Ideal) a0 blk (ix2 p q) := by
  unfold k0_pay11
  dsimp only
  rw [addf_apply, mulf_apply, mulf_apply]
  congr 1
  refine (Cert.RowOps.shapeCast_a_a1_apply _ _ p 0).trans ?_
  refine (Cert.RowOps.rowSum_apply _ _ _ _ _ p).trans ?_
  rfl

/-- The new pick at row p: the old pick and the sum over the block's row of the entries whose column is the label's. -/
private theorem pay6_at (i : grid0.Coords) (k : Fin k0_t1_loop.trips) (v3 : Vec Ideal S512x1 .i32)
    (a3 : Vec Ideal S512x1 .f32) (blk : Vec Ideal S512x1280 .f32) (p : Fin 512) :
    k0_pay6 (F := Ideal) i v3 k a3 blk (ix2 p (0 : Fin 1))
      = a3 (ix2 p (0 : Fin 1))
          + ∑ q : Fin 1280, Scalar.select
              (IntOp.cmpi .eq (BitVec.ofNat 32 q.val)
                (IntOp.subi (v3 (ix2 p (0 : Fin 1)))
                  (Scalar.addi (Scalar.muli (BitVec.ofNat 32 (i 1).val) 6400#32)
                    (Scalar.muli (Scf.iv 0#32 1#32 k) 1280#32))))
              (blk (ix2 p q)) (Ideal.ofBits .f32 0x00000000#32) := by
  unfold k0_pay6
  dsimp only
  rw [addf_apply]
  congr 1
  refine (Cert.RowOps.shapeCast_a_a1_apply _ _ p 0).trans ?_
  refine (Cert.RowOps.rowSum_apply _ _ _ _ _ p).trans ?_
  refine Finset.sum_congr rfl fun q _ => ?_
  rw [select_apply]
  have hiota : iota Kind.tc S512x1280 32 [1] iota_S512x1280_d1_w32 (ix2 p q) = BitVec.ofNat 32 q.val :=
    iota_single_apply .tc S512x1280 32 1 _ (ix2 p q)
  show Scalar.select (IntOp.cmpi .eq (iota Kind.tc S512x1280 32 [1] iota_S512x1280_d1_w32 (ix2 p q))
      (broadcastTo S512x1280 _ broadcasts_S512x1_S512x1280 (ix2 p q))) _ _ = _
  rw [hiota, Cert.RowOps.broadcastTo_a1_ab_apply (by decide) _ _ p q, shapeCast_self]
  rfl

/-- The block's first column as a word: 6400 · (column tile) + 1280 · (trip), below 32000, so no product or sum wraps. -/
private theorem word_off (c k : ℕ) (hc : c < 5) (hk : k < 5) :
    Scalar.addi (Scalar.muli (BitVec.ofNat 32 c) 6400#32) (Scalar.muli (Scf.iv 0#32 1#32 k) 1280#32)
      = BitVec.ofNat 32 (6400 * c + 1280 * k) := by
  show BitVec.ofNat 32 c * 6400#32 + (0#32 + BitVec.ofNat 32 k * 1#32) * 1280#32 = _
  apply BitVec.eq_of_toNat_eq
  simp only [BitVec.toNat_add, BitVec.toNat_mul, BitVec.toNat_ofNat]
  omega

/-- Column q of a block starting at column n is the label t exactly when the words compare equal: all of q, n, t are
    far below 2^32, so the word difference t - n is q only if n + q = t. -/
private theorem select_label {α : Type} (q t n : ℕ) (hq : q < 1280) (ht : t < 32000) (hn : n ≤ 30720) (A B : α) :
    Scalar.select (IntOp.cmpi .eq (BitVec.ofNat 32 q) (IntOp.subi (BitVec.ofNat 32 t) (BitVec.ofNat 32 n))) A B
      = if n + q = t then A else B := by
  have hiff : (BitVec.ofNat 32 q = BitVec.ofNat 32 t - BitVec.ofNat 32 n) ↔ n + q = t := by
    constructor
    · intro h
      have h' := congrArg BitVec.toNat h
      simp only [BitVec.toNat_sub, BitVec.toNat_ofNat] at h'
      omega
    · intro h
      apply BitVec.eq_of_toNat_eq
      simp only [BitVec.toNat_sub, BitVec.toNat_ofNat]
      omega
  have hc : IntOp.cmpi .eq (BitVec.ofNat 32 q) (IntOp.subi (BitVec.ofNat 32 t) (BitVec.ofNat 32 n)) = (1 : BitVec 1) ↔ n + q = t := by
    rw [← hiff]
    exact Idealize.ShloMosaic.StableHlo.Predicate.cmpi_eq_iff
  unfold Scalar.select
  by_cases h : n + q = t
  · rw [if_pos h, if_pos (hc.mpr h)]
  · rw [if_neg h, if_neg (fun h' => h (hc.mp h'))]

/-- One trip at row p. The block's row holds the reals x (n + q), n the number of columns already seen,
    n = 6400 · (column tile) + 1280 · (trip); the row's label is t. -/
theorem trip_row (i : grid0.Coords) (k : Fin k0_t1_loop.trips) (v3 : Vec Ideal S512x1 .i32)
    (a0 a1 a2 a3 : Vec Ideal S512x1 .f32) (blk : Vec Ideal S512x1280 .f32) (p : Fin 512)
    (x : ℕ → ℝ) (n : ℕ) (hn : n = 6400 * (i 1).val + 1280 * k.val)
    (hblk : ∀ q : Fin 1280, blk (ix2 p q) = ((x (n + q.val) : ℝ) : EReal))
    (t : ℕ) (ht : t < 32000) (hv3 : v3 (ix2 p (0 : Fin 1)) = BitVec.ofNat 32 t)
    (m s1 s2 tg : ℝ) (h0 : a0 (ix2 p (0 : Fin 1)) = ((m : ℝ) : EReal)) (h1 : a1 (ix2 p (0 : Fin 1)) = ((s1 : ℝ) : EReal))
    (h2 : a2 (ix2 p (0 : Fin 1)) = ((s2 : ℝ) : EReal)) (h3 : a3 (ix2 p (0 : Fin 1)) = ((tg : ℝ) : EReal)) :
    ∃ m' : ℝ, k0_pay7 (F := Ideal) a0 blk (ix2 p (0 : Fin 1)) = ((m' : ℝ) : EReal)
      ∧ k0_pay10 (F := Ideal) a0 a1 blk (ix2 p (0 : Fin 1))
          = ((Real.exp (m - m') * s1 + ∑ q : Fin 1280, Real.exp (x (n + q.val) - m') : ℝ) : EReal)
      ∧ k0_pay11 (F := Ideal) a0 a2 blk (ix2 p (0 : Fin 1))
          = (((Real.exp (m - m') * Real.exp (m - m')) * s2
              + ∑ q : Fin 1280, Real.exp (x (n + q.val) - m') * Real.exp (x (n + q.val) - m') : ℝ) : EReal)
      ∧ k0_pay6 (F := Ideal) i v3 k a3 blk (ix2 p (0 : Fin 1))
          = ((tg + ∑ q : Fin 1280, (if n + q.val = t then x (n + q.val) else 0) : ℝ) : EReal) := by
  obtain ⟨M, -, -, hM⟩ := OnlineSoftmax.fold_max_real (N := 1280) (by norm_num) (fun q => x (n + q.val))
  have h7 : k0_pay7 (F := Ideal) a0 blk (ix2 p (0 : Fin 1)) = ((max m M : ℝ) : EReal) := by
    rw [pay7_at, h0, OnlineSoftmax.coe_max, ← hM]
    exact congrArg (fun f => max ((m : ℝ) : EReal) ((Finset.univ : Finset (Fin 1280)).fold max (⊥ : EReal) f)) (funext hblk)
  have h8 : k0_pay8 (F := Ideal) a0 blk (ix2 p (0 : Fin 1)) = ((Real.exp (m - max m M) : ℝ) : EReal) := by
    rw [pay8_at, h7, h0, ← EReal.coe_sub, Ideal.exp_coe]
  have h9 : ∀ q : Fin 1280, k0_pay9 (F := Ideal) a0 blk (ix2 p q) = ((Real.exp (x (n + q.val) - max m M) : ℝ) : EReal) := by
    intro q
    rw [pay9_at, h7, hblk, ← EReal.coe_sub, Ideal.exp_coe]
  have hc : (i 1).val < 5 := (i 1).isLt
  have hk : k.val < 5 := lt_of_lt_of_le k.isLt k0_t1_abs.2.1
  have hn' : n ≤ 30720 := by omega
  refine ⟨max m M, h7, ?_, ?_, ?_⟩
  · rw [pay10_at, h8, h1, EReal.coe_add, EReal.coe_mul, IdealReal.coe_sum]
    congr 1
    exact Finset.sum_congr rfl fun q _ => h9 q
  · rw [pay11_at, h8, h2, EReal.coe_add, EReal.coe_mul, EReal.coe_mul, IdealReal.coe_sum]
    congr 1
    refine Finset.sum_congr rfl fun q _ => ?_
    rw [h9 q, EReal.coe_mul]
  · rw [pay6_at, h3, EReal.coe_add, IdealReal.coe_sum]
    congr 1
    refine Finset.sum_congr rfl fun q _ => ?_
    rw [hv3, word_off _ _ hc hk, ← hn, select_label q.val t n q.isLt ht hn', hblk, Punitive.ofBits_zero]
    split_ifs <;> rfl

end Cert.KernelIdeal.KTrip

end
-- ==== Proof.KRow.lean ====
/-
  The carried state of one row through the inner loop.

  The state of row p describes the first n columns of a real row X with label t when, for some real shift m, its
  four entries are m, Σ_{c<n} exp (X c - m), Σ_{c<n} exp (X c - m)², and the label's logit if the label is below n
  (else zero). A trip over the next 1280 columns takes a state describing n columns to one describing n + 1280; five
  trips take a state describing the columns before a tile to one describing the columns through the tile.
-/
import proofs.«408673_j82102594830633_3_alg».proof.Proof.KLoop
import proofs.«408673_j82102594830633_3_alg».proof.Proof.KTrip
import proofs.«408673_j82102594830633_3_alg».proof.Proof.Spec
import Idealize.ShloMosaic.Lib.ValueIdx

noncomputable section

namespace Cert.KernelIdeal.KRow

open Idealize.ShloMosaic Idealize.ShloMosaic.ValueIdx Cert.KernelIdeal Cert.KernelIdeal.Gen Cert.KernelIdeal.KLoop Punitive
open Finset

/-- The four carried columns. -/
abbrev St : Type := Vec Ideal S512x1 .f32 × Vec Ideal S512x1 .f32 × Vec Ideal S512x1 .f32 × Vec Ideal S512x1 .f32

/-- The state of row p describes the first n columns of the row X with label t. -/
def RowInv (X : ℕ → ℝ) (t n : ℕ) (S : St) (p : Fin 512) : Prop :=
  ∃ m : ℝ, S.1 (ix2 p (0 : Fin 1)) = ((m : ℝ) : EReal)
    ∧ S.2.1 (ix2 p (0 : Fin 1)) = ((∑ c ∈ range n, Real.exp (X c - m) : ℝ) : EReal)
    ∧ S.2.2.1 (ix2 p (0 : Fin 1)) = ((∑ c ∈ range n, Real.exp (X c - m) * Real.exp (X c - m) : ℝ) : EReal)
    ∧ S.2.2.2 (ix2 p (0 : Fin 1)) = ((∑ c ∈ range n, (if c = t then X c else 0) : ℝ) : EReal)

theorem trip_lt (k : Fin k0_t1_loop.trips) : k.val < 5 := Nat.lt_of_lt_of_le k.isLt k0_t1_abs.2.1

/-- Column q of trip k's columns is column 1280 · k + q of the tile. -/
theorem chunk_apply (x0 : Vec Ideal S512x6400 .f32) (k : Fin k0_t1_loop.trips) (p : Fin 512) (q : Fin 1280) :
    chunk x0 k (ix2 p q)
      = x0 (ix2 p (⟨1280 * k.val + q.val, by have := trip_lt k; have := q.isLt; omega⟩ : Fin 6400)) := by
  unfold chunk
  show x0 ((Rect.unit (s := S512x6400) (k0_off1 k) S512x1280.size (k0_off1_inb k)).idx (ix2 p q)) = _
  congr 1
  funext a
  apply Fin.ext
  have ho := k0_off1_eq k
  match a with
  | ⟨0, _⟩ =>
    show k0_off1 k 0 + 1 * p.val = p.val
    rw [ho]; simp
  | ⟨1, _⟩ =>
    show k0_off1 k 1 + 1 * q.val = 1280 * k.val + q.val
    rw [ho]; simp

/-- One trip: a state describing the columns before the trip's goes to one describing them too. -/
theorem trip_inv (i : grid0.Coords) (v3 : Vec Ideal S512x1 .i32) (x0 : Vec Ideal S512x6400 .f32)
    (k : Fin k0_t1_loop.trips) (acc : St) (p : Fin 512) (X : ℕ → ℝ) (t : ℕ) (ht : t < 32000)
    (hv3 : v3 (ix2 p (0 : Fin 1)) = BitVec.ofNat 32 t)
    (hx : ∀ cc : Fin 6400, x0 (ix2 p cc) = ((X (6400 * (i 1).val + cc.val) : ℝ) : EReal))
    (h : RowInv X t (6400 * (i 1).val + 1280 * k.val) acc p) :
    RowInv X t (6400 * (i 1).val + 1280 * (k.val + 1)) (tripF i v3 x0 k acc) p := by
  obtain ⟨m, h0, h1, h2, h3⟩ := h
  have hblk : ∀ q : Fin 1280, chunk x0 k (ix2 p q)
      = ((X ((6400 * (i 1).val + 1280 * k.val) + q.val) : ℝ) : EReal) := fun q => by
    rw [chunk_apply, hx]
    show ((X (6400 * (i 1).val + (1280 * k.val + q.val)) : ℝ) : EReal) = _
    rw [Nat.add_assoc]
  obtain ⟨m', e7, e10, e11, e6⟩ := KTrip.trip_row i k v3 acc.1 acc.2.1 acc.2.2.1 acc.2.2.2 (chunk x0 k) p X
    (6400 * (i 1).val + 1280 * k.val) rfl hblk t ht hv3 m _ _ _ h0 h1 h2 h3
  have hn : 6400 * (i 1).val + 1280 * (k.val + 1) = (6400 * (i 1).val + 1280 * k.val) + 1280 := by ring
  rw [hn]
  refine ⟨m', e7, ?_, ?_, ?_⟩
  · exact e10.trans (congrArg _ (step_s1 X _ 1280 m m'))
  · exact e11.trans (congrArg _ (step_s2 X _ 1280 m m'))
  · exact e6.trans (congrArg _ (step_tg X _ 1280 t))

/-- The loop: a state describing the columns before the tile goes, after k trips, to one describing 1280 · k more. -/
theorem fold_inv (i : grid0.Coords) (v3 : Vec Ideal S512x1 .i32) (x0 : Vec Ideal S512x6400 .f32) (init : St)
    (p : Fin 512) (X : ℕ → ℝ) (t : ℕ) (ht : t < 32000) (hv3 : v3 (ix2 p (0 : Fin 1)) = BitVec.ofNat 32 t)
    (hx : ∀ cc : Fin 6400, x0 (ix2 p cc) = ((X (6400 * (i 1).val + cc.val) : ℝ) : EReal))
    (h0 : RowInv X t (6400 * (i 1).val) init p) :
    ∀ k : ℕ, k ≤ k0_t1_loop.trips → RowInv X t (6400 * (i 1).val + 1280 * k) (foldF i v3 x0 init k) p
  | 0, _ => by
    rw [Nat.mul_zero, Nat.add_zero]; exact h0
  | k + 1, hk => by
    rw [foldF_succ i v3 x0 init ⟨k, hk⟩]
    exact trip_inv i v3 x0 ⟨k, hk⟩ _ p X t ht hv3 hx (fold_inv i v3 x0 init p X t ht hv3 hx h0 k (Nat.le_of_lt hk))

/-- The whole tile: five trips add its 6400 columns. -/
theorem tile_inv (i : grid0.Coords) (v3 : Vec Ideal S512x1 .i32) (x0 : Vec Ideal S512x6400 .f32) (init : St)
    (p : Fin 512) (X : ℕ → ℝ) (t : ℕ) (ht : t < 32000) (hv3 : v3 (ix2 p (0 : Fin 1)) = BitVec.ofNat 32 t)
    (hx : ∀ cc : Fin 6400, x0 (ix2 p cc) = ((X (6400 * (i 1).val + cc.val) : ℝ) : EReal))
    (h0 : RowInv X t (6400 * (i 1).val) init p) :
    RowInv X t (6400 * ((i 1).val + 1)) (foldF i v3 x0 init k0_t1_loop.trips) p := by
  have h := fold_inv i v3 x0 init p X t ht hv3 hx h0 k0_t1_loop.trips (Nat.le_refl _)
  have e : 6400 * (i 1).val + 1280 * k0_t1_loop.trips = 6400 * ((i 1).val + 1) := by rw [trips_eq]; ring
  rw [e] at h
  exact h

end Cert.KernelIdeal.KRow

end
-- ==== Proof.KPoint.lean ====
/-
  The carried columns and the output block, grid point by grid point.

  The grid walks 16 row blocks of 512 rows, each through 5 column tiles of 6400 columns; point t is row block t / 5 at
  column tile t % 5. After point t the carried state of row p describes the first 6400 · (t % 5 + 1) columns of row
  512 · (t / 5) + p of the logits: the first tile of a row block starts from the reset state, which describes no
  column; a later tile starts from what the point before left, which by induction describes the columns before the
  tile. At the last tile of a row block the state describes the whole row, and the output block's row p is the
  closing arithmetic of it: the row's loss.
-/
import proofs.«408673_j82102594830633_3_alg».proof.Proof.Gen.KernelIdeal.Frame
import proofs.«408673_j82102594830633_3_alg».proof.Proof.KPieces
import proofs.«408673_j82102594830633_3_alg».proof.Proof.KRow
import proofs.«408673_j82102594830633_3_alg».proof.Proof.KFinal
import proofs.«408673_j82102594830633_3_alg».proof.Proof.Spec
import proofs.«408673_j82102594830633_3_alg».proof.Proof.Consts

set_option maxRecDepth 65536

noncomputable section

namespace Cert.KernelIdeal.KPoint

open Idealize.ShloMosaic Idealize.ShloMosaic.TcCoe Idealize.ShloMosaic.ValueIdx Idealize.SL.Sem
open Cert.KernelIdeal Cert.KernelIdeal.Gen Cert.KernelIdeal.KLoop Cert.KernelIdeal.KPieces Cert.KernelIdeal.KRow
open Cert.KernelIdeal.KFinal Punitive

variable (m : (ℓ : Loc nD τ sig) → Buf (Elt Ideal) ℓ)

/-- The logits and the labels as the region finds them, and the two input blocks at a point. -/
abbrev xarr (c : Dev nD) : Vec Ideal S8192x32000 .f32 := V m c main_arg0
abbrev tarr (c : Dev nD) : Vec Ideal S8192x1 .i32 := V m c main_v0
abbrev xblk (c : Dev nD) (t : Fin cfg0.N) : Vec Ideal S512x6400 .f32 := iblk m c 0 t
abbrev tblk (c : Dev nD) (t : Fin cfg0.N) : Vec Ideal S512x1 .i32 := iblk m c 1 t

theorem t_lt (t : Fin cfg0.N) : t.val < 80 := lt_of_lt_of_eq t.isLt (show cfg0.N = 80 from N_0)

/-! ### The grid's coordinates and the windows' block indices, decided over the 80 points -/

theorem coord1 : ∀ t : Fin cfg0.N, ((grid0.coords t) 1).val = t.val % 5 :=
  (by decide +kernel : ∀ t : Fin grid0.N, ((grid0.coords t) 1).val = t.val % 5)
theorem idx0_0 : ∀ t : Fin cfg0.N, win0_0.index t (0 : Fin 2) = t.val / 5 :=
  (by decide +kernel : ∀ t : Fin grid0.N, win0_0.index t (0 : Fin 2) = t.val / 5)
theorem idx0_1 : ∀ t : Fin cfg0.N, win0_0.index t (1 : Fin 2) = t.val % 5 :=
  (by decide +kernel : ∀ t : Fin grid0.N, win0_0.index t (1 : Fin 2) = t.val % 5)
theorem idx1_0 : ∀ t : Fin cfg0.N, win0_1.index t (0 : Fin 2) = t.val / 5 :=
  (by decide +kernel : ∀ t : Fin grid0.N, win0_1.index t (0 : Fin 2) = t.val / 5)
theorem idx1_1 : ∀ t : Fin cfg0.N, win0_1.index t (1 : Fin 2) = 0 :=
  (by decide +kernel : ∀ t : Fin grid0.N, win0_1.index t (1 : Fin 2) = 0)

/-! ### The input blocks read off the arrays -/

/-- Entry (p, cc) of the logits' block at point t is entry (512 · (t / 5) + p, 6400 · (t % 5) + cc) of the logits. -/
theorem xblk_real (c : Dev nD) (t : Fin cfg0.N) (p : Fin 512) (cc : Fin 6400) (XR : ℕ → ℕ → ℝ)
    (hX : ∀ (r : Fin 8192) (k : Fin 32000), xarr m c (ix2 r k) = ((XR r.val k.val : ℝ) : EReal)) :
    xblk m c t (ix2 p cc) = ((XR (512 * (t.val / 5) + p.val) (6400 * (t.val % 5) + cc.val) : ℝ) : EReal) := by
  have ht := t_lt t
  have h := hX (⟨512 * (t.val / 5) + p.val, by have := p.isLt; omega⟩ : Fin 8192)
    (⟨6400 * (t.val % 5) + cc.val, by have := cc.isLt; omega⟩ : Fin 32000)
  rw [← h]
  show V m c main_arg0 (((cfg0.win 0).blk t).view.emb (ix2 p cc)) = V m c main_arg0 _
  congr 1
  funext a
  apply Fin.ext
  match a with
  | ⟨0, _⟩ =>
    show win0_0.index t (0 : Fin 2) * 512 + 1 * p.val = 512 * (t.val / 5) + p.val
    rw [idx0_0]; omega
  | ⟨1, _⟩ =>
    show win0_0.index t (1 : Fin 2) * 6400 + 1 * cc.val = 6400 * (t.val % 5) + cc.val
    rw [idx0_1]; omega

/-- Entry (p, 0) of the labels' block at point t is the label of row 512 · (t / 5) + p. -/
theorem tblk_word (c : Dev nD) (t : Fin cfg0.N) (p : Fin 512) (TR : ℕ → ℕ)
    (hT : ∀ r : Fin 8192, tarr m c (ix2 r (0 : Fin 1)) = BitVec.ofNat 32 (TR r.val)) :
    tblk m c t (ix2 p (0 : Fin 1)) = BitVec.ofNat 32 (TR (512 * (t.val / 5) + p.val)) := by
  have ht := t_lt t
  have h := hT (⟨512 * (t.val / 5) + p.val, by have := p.isLt; omega⟩ : Fin 8192)
  rw [← h]
  show V m c main_v0 (((cfg0.win 1).blk t).view.emb (ix2 p (0 : Fin 1))) = V m c main_v0 _
  congr 1
  funext a
  apply Fin.ext
  match a with
  | ⟨0, _⟩ =>
    show win0_1.index t (0 : Fin 2) * 512 + 1 * p.val = 512 * (t.val / 5) + p.val
    rw [idx1_0]; omega
  | ⟨1, _⟩ =>
    show win0_1.index t (1 : Fin 2) * 1 + 1 * 0 = 0
    rw [idx1_1]

/-- What the point before left, when there is one. -/
abbrev prev (c : Dev nD) (t : Fin cfg0.N) := outsAt0 m c (t.val - 1) (Nat.lt_of_le_of_lt (Nat.sub_le _ _) t.isLt)

/-- The reset state describes no column. -/
theorem reset_inv (X : ℕ → ℝ) (t : ℕ) (p : Fin 512) : RowInv X t 0 (reset (F := Ideal)) p :=
  ⟨negBig, pay2_row p, by rw [Finset.sum_range_zero]; exact pay3_row p, by rw [Finset.sum_range_zero]; exact pay4_row p,
    by rw [Finset.sum_range_zero]; exact pay5_row p⟩

section Inv

variable (c : Dev nD) (XR : ℕ → ℕ → ℝ) (TR : ℕ → ℕ)
  (hX : ∀ (r : Fin 8192) (k : Fin 32000), xarr m c (ix2 r k) = ((XR r.val k.val : ℝ) : EReal))
  (hT : ∀ r : Fin 8192, TR r.val < 32000 ∧ tarr m c (ix2 r (0 : Fin 1)) = BitVec.ofNat 32 (TR r.val))

include hX hT

/-- One tile at point t from a state describing the columns before it. -/
theorem tile_at (t : Fin cfg0.N) (p : Fin 512) (init : St)
    (h0 : RowInv (XR (512 * (t.val / 5) + p.val)) (TR (512 * (t.val / 5) + p.val)) (6400 * (t.val % 5)) init p) :
    RowInv (XR (512 * (t.val / 5) + p.val)) (TR (512 * (t.val / 5) + p.val)) (6400 * (t.val % 5 + 1))
      (foldF (grid0.coords t) (tblk m c t) (xblk m c t) init k0_t1_loop.trips) p := by
  have ht := t_lt t
  have hr : 512 * (t.val / 5) + p.val < 8192 := by have := p.isLt; omega
  have hc1 := coord1 t
  have h := tile_inv (grid0.coords t) (tblk m c t) (xblk m c t) init p (XR (512 * (t.val / 5) + p.val))
    (TR (512 * (t.val / 5) + p.val)) (hT ⟨_, hr⟩).1
    (tblk_word m c t p TR (fun r => (hT r).2))
    (fun cc => by rw [hc1]; exact xblk_real m c t p cc XR hX)
    (by rw [hc1]; exact h0)
  rw [hc1] at h
  exact h

/-- After point t the carried state of row p describes the first 6400 · (t % 5 + 1) columns of its row. -/
theorem scratch_inv : ∀ (n : ℕ) (t : Fin cfg0.N), t.val = n → ∀ p : Fin 512,
    RowInv (XR (512 * (t.val / 5) + p.val)) (TR (512 * (t.val / 5) + p.val)) (6400 * (t.val % 5 + 1))
      (outsAt0 m c t.val t.isLt).2 p := by
  intro n
  induction n with
  | zero =>
    intro t htn p
    have h0 : t.val % 5 = 0 := by rw [htn]
    have h1 : ¬t.val % 5 = 4 := by rw [htn]; decide
    have H := tile_at m c XR TR hX hT t p (reset (F := Ideal)) (by rw [h0]; exact reset_inv _ _ p)
    obtain ⟨mm, e0, e1, e2, e3⟩ := H
    rw [outsAt0_A m c t h0 h1]
    unfold RowInv
    dsimp only
    rw [soutA_0, soutA_1, soutA_2, soutA_3]
    exact ⟨mm, e0, e1, e2, e3⟩
  | succ n ih =>
    intro t htn p
    have ht := t_lt t
    by_cases h0 : t.val % 5 = 0
    · have h1 : ¬t.val % 5 = 4 := by omega
      have H := tile_at m c XR TR hX hT t p (reset (F := Ideal)) (by rw [h0]; exact reset_inv _ _ p)
      obtain ⟨mm, e0, e1, e2, e3⟩ := H
      rw [outsAt0_A m c t h0 h1]
      unfold RowInv
      dsimp only
      rw [soutA_0, soutA_1, soutA_2, soutA_3]
      exact ⟨mm, e0, e1, e2, e3⟩
    · -- a later tile: the point before is the same row block's previous tile
      have IH := ih ⟨t.val - 1, Nat.lt_of_le_of_lt (Nat.sub_le _ _) t.isLt⟩ (by show t.val - 1 = n; omega) p
      have hq : (t.val - 1) / 5 = t.val / 5 := by omega
      have hr : (t.val - 1) % 5 + 1 = t.val % 5 := by omega
      have IH' : RowInv (XR (512 * (t.val / 5) + p.val)) (TR (512 * (t.val / 5) + p.val)) (6400 * (t.val % 5))
          (prev m c t).2 p := by
        have := IH
        simp only [hq, hr] at this
        exact this
      have H := tile_at m c XR TR hX hT t p (prev m c t).2 IH'
      obtain ⟨mm, e0, e1, e2, e3⟩ := H
      by_cases h1 : t.val % 5 = 4
      · rw [outsAt0_C m c t h0 h1]
        unfold RowInv
        dsimp only
        rw [soutC_0, soutC_1, soutC_2, soutC_3]
        exact ⟨mm, e0, e1, e2, e3⟩
      · rw [outsAt0_B m c t h0 h1]
        unfold RowInv
        dsimp only
        rw [soutB_0, soutB_1, soutB_2, soutB_3]
        exact ⟨mm, e0, e1, e2, e3⟩

/-- At the last column tile of a row block the output block's row p is the loss of row 512 · (t / 5) + p. -/
theorem out_val (t : Fin cfg0.N) (h1 : t.val % 5 = 4) (p : Fin 512) :
    (outsAt0 m c t.val t.isLt).1 (ix2 p (0 : Fin 1))
      = ((rowLoss w01 (XR (512 * (t.val / 5) + p.val)) 32000 (TR (512 * (t.val / 5) + p.val)) : ℝ) : EReal) := by
  have ht := t_lt t
  have h0 : ¬t.val % 5 = 0 := by omega
  have hrow : 512 * (t.val / 5) + p.val < 8192 := by have := p.isLt; omega
  have IH := scratch_inv m c XR TR hX hT (t.val - 1) ⟨t.val - 1, Nat.lt_of_le_of_lt (Nat.sub_le _ _) t.isLt⟩ rfl p
  have hq : (t.val - 1) / 5 = t.val / 5 := by omega
  have hr : (t.val - 1) % 5 + 1 = t.val % 5 := by omega
  have IH' : RowInv (XR (512 * (t.val / 5) + p.val)) (TR (512 * (t.val / 5) + p.val)) (6400 * (t.val % 5))
      (prev m c t).2 p := by
    have := IH
    simp only [hq, hr] at this
    exact this
  have H := tile_at m c XR TR hX hT t p (prev m c t).2 IH'
  have hn : 6400 * (t.val % 5 + 1) = 32000 := by omega
  rw [hn] at H
  obtain ⟨mm, e0, e1, e2, e3⟩ := H
  rw [outsAt0_C m c t h0 h1]
  dsimp only
  rw [outC_2]
  have hpos : 0 < ∑ k ∈ Finset.range 32000, Real.exp (XR (512 * (t.val / 5) + p.val) k - mm) :=
    sum_exp_shift_pos _ (by decide) mm
  rw [final_row _ _ _ _ _ _ p mm _ _ _ hpos e0 e1 e2 e1 e1 e3]
  exact congrArg _ (onepass_final w01 (XR (512 * (t.val / 5) + p.val)) (by decide) (TR (512 * (t.val / 5) + p.val)) mm _ _ _
    rfl rfl (tg_final _ (hT ⟨_, hrow⟩).1))

end Inv

end Cert.KernelIdeal.KPoint

end
-- ==== Proof.KArray.lean ====
/-
  The output column, the mean over it, and the kernel's run.

  The output block is written back once per row block, at its last column tile, and those 16 blocks of 512 rows tile
  the [8192, 1] output: so after the region row r of the output is the loss of row r. The host then sums the column
  and divides by 8192.
-/
import proofs.«408673_j82102594830633_3_alg».proof.Proof.Gen.KernelIdeal.Frame
import proofs.«408673_j82102594830633_3_alg».proof.Proof.KPoint
import proofs.«408673_j82102594830633_3_alg».proof.Proof.LibRowOps

set_option maxRecDepth 65536

noncomputable section

namespace Cert.KernelIdeal.KArray

open Idealize.ShloMosaic Idealize.ShloMosaic.TcCoe Idealize.ShloMosaic.ValueIdx Idealize.SL.Sem
open Cert.KernelIdeal Cert.KernelIdeal.Gen Cert.KernelIdeal.KPoint Punitive

variable (m : (ℓ : Loc nD τ sig) → Buf (Elt Ideal) ℓ)

/-! ### The output window's block indices and sizes, decided over the 80 points -/

theorem idx2_0 : ∀ t : Fin cfg0.N, win0_2.index t (0 : Fin 2) = t.val / 5 :=
  (by decide +kernel : ∀ t : Fin grid0.N, win0_2.index t (0 : Fin 2) = t.val / 5)
theorem idx2_1 : ∀ t : Fin cfg0.N, win0_2.index t (1 : Fin 2) = 0 :=
  (by decide +kernel : ∀ t : Fin grid0.N, win0_2.index t (1 : Fin 2) = 0)
theorem xs2_0 : ∀ t : Fin cfg0.N, win0_2.xsize (grid0.coords t) (0 : Fin 2) = 512 :=
  (by decide +kernel : ∀ t : Fin grid0.N, win0_2.xsize (grid0.coords t) (0 : Fin 2) = 512)
theorem xs2_1 : ∀ t : Fin cfg0.N, win0_2.xsize (grid0.coords t) (1 : Fin 2) = 1 :=
  (by decide +kernel : ∀ t : Fin grid0.N, win0_2.xsize (grid0.coords t) (1 : Fin 2) = 1)

/-- The labels as the region finds them are the label vector recast as a column. -/
theorem tarr_eq (c : Dev nD) (r : Fin 8192) :
    tarr m c (ix2 r (0 : Fin 1)) = m ((c : Thread nD τ).loc main_arg1) (ix1 r) := by
  have e : (tarr m c : S8192x1.Idx → BitVec 32)
      = shapeCast S8192x1 (m ((c : Thread nD τ).loc main_arg1)) shapeCasts_S8192_S8192x1 := by
    show StableHlo.after hostOps0 (fun b => m (c, b)) (Proc.devRef .tc main_v0) = _
    after_results
    rfl
  rw [e]
  exact Cert.RowOps.shapeCast_a_a1_apply _ _ r 0

section Arr

variable (c : Dev nD) (XR : ℕ → ℕ → ℝ) (TR : ℕ → ℕ)

/-- The column of row losses. -/
def lossArr : Buf (Elt Ideal) ((c : Thread nD τ).loc main_v1) :=
  fun i => ((rowLoss w01 (XR (i 0).val) 32000 (TR (i 0).val) : ℝ) : EReal)

variable (hX : ∀ (r : Fin 8192) (k : Fin 32000), xarr m c (ix2 r k) = ((XR r.val k.val : ℝ) : EReal))
  (hT : ∀ r : Fin 8192, TR r.val < 32000 ∧ tarr m c (ix2 r (0 : Fin 1)) = BitVec.ofNat 32 (TR r.val))

include hX hT

/-- What a write-back of the output block writes is the block of the loss column. -/
theorem flushed_eq (t : Fin cfg0.N) (hf : (cfg0.win 2).flush t = true) :
    (dats m 0 c).flushed 2 t = ((cfg0.win 2).blk t).view.read (Elt Ideal) (lossArr c XR TR) := by
  have h4 : t.val % 5 = 4 := (flush0_2 t).mp hf
  have ht := t_lt t
  show (cfg0.win 2).cut (grid0.coords t) ((dats m 0 c).after 2 t) = _
  rw [after0_2]
  funext y
  have hy0 : (y 0).val < 512 := lt_of_lt_of_eq (y 0).isLt (xs2_0 t)
  have hy1 : (y 1).val < 1 := lt_of_lt_of_eq (y 1).isLt (xs2_1 t)
  have hxinj : (cfg0.win 2).xinj (grid0.coords t) y = ix2 (⟨(y 0).val, hy0⟩ : Fin 512) (0 : Fin 1) :=
    funext fun a => Fin.ext (by
      match a with
      | ⟨0, _⟩ => rfl
      | ⟨1, _⟩ => show (y 1).val = 0; omega)
  show (outsAt0 m c t.val t.isLt).1 ((cfg0.win 2).xinj (grid0.coords t) y)
    = lossArr c XR TR (((cfg0.win 2).blk t).view.emb y)
  rw [hxinj, out_val m c XR TR hX hT t h4 ⟨(y 0).val, hy0⟩]
  have he : ((((cfg0.win 2).blk t).view.emb y) 0).val = 512 * (t.val / 5) + (y 0).val := by
    show win0_2.index t (0 : Fin 2) * 512 + 1 * (y 0).val = _
    rw [idx2_0]; omega
  unfold lossArr
  rw [he]

/-- After the region the output column is the column of row losses. -/
theorem final_out : (dats m 0 c).arrAt 2 cfg0.N = lossArr c XR TR :=
  (dats m 0 c).arrAt_eq_of_cover 2 (lossArr c XR TR) (flushed_eq m c XR TR hX hT) fun i => by
    have hi0 : (i 0).val < 8192 := (i 0).isLt
    have hi1 : (i 1).val < 1 := (i 1).isLt
    have hN : 5 * ((i 0).val / 512) + 4 < cfg0.N := by rw [show cfg0.N = 80 from N_0]; omega
    refine ⟨⟨5 * ((i 0).val / 512) + 4, hN⟩, (flush0_2 _).mpr (by show (5 * ((i 0).val / 512) + 4) % 5 = 4; omega), ?_⟩
    show i ∈ ((View.whole main_v1).slice (win0_2.rect ⟨5 * ((i 0).val / 512) + 4, hN⟩)).set
    rw [View.set_slice_whole, Rect.mem_set_unit]
    intro a
    match a with
    | ⟨0, _⟩ =>
      show win0_2.index ⟨5 * ((i 0).val / 512) + 4, hN⟩ (0 : Fin 2) * 512 ≤ (i 0).val
        ∧ (i 0).val < win0_2.index ⟨5 * ((i 0).val / 512) + 4, hN⟩ (0 : Fin 2) * 512
            + win0_2.xsize (grid0.coords ⟨5 * ((i 0).val / 512) + 4, hN⟩) (0 : Fin 2)
      rw [idx2_0, xs2_0]
      show (5 * ((i 0).val / 512) + 4) / 5 * 512 ≤ (i 0).val ∧ (i 0).val < (5 * ((i 0).val / 512) + 4) / 5 * 512 + 512
      omega
    | ⟨1, _⟩ =>
      show win0_2.index ⟨5 * ((i 0).val / 512) + 4, hN⟩ (1 : Fin 2) * 1 ≤ (i 1).val
        ∧ (i 1).val < win0_2.index ⟨5 * ((i 0).val / 512) + 4, hN⟩ (1 : Fin 2) * 1
            + win0_2.xsize (grid0.coords ⟨5 * ((i 0).val / 512) + 4, hN⟩) (1 : Fin 2)
      rw [idx2_1, xs2_1]
      omega

/-- The host's mean of a column: its sum over both axes divided by the word of 8192. -/
def tailOf (L : (⟨S8192x1, .f32⟩ : BufTy).Contents (Elt Ideal)) : (⟨S_, .f32⟩ : BufTy).Contents (Elt Ideal) :=
  Host.divf (F := Ideal) (Host.reduceAdd (F := Ideal) L (constant (F := Ideal) S_ .f32 0x00000000#32) reducesTo_S8192x1_S_d0_1 h_S_)
    (constant (F := Ideal) S_ .f32 0x46000000#32)

/-- What the host lines after the region leave in the result buffer. -/
theorem tail_val : Pipeline.afterTail₀ cfgs (dats m) 0 (V0 m) [hostOps1] c main_v3 = tailOf (lossArr c XR TR) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = lossArr c XR TR :=
    (Pipeline.withArrays_arr spec0 launch0.win.arr_inj c _ _ 2).trans (final_out m c XR TR hX hT)
  rw [hw]
  rfl

end Arr

/-- THE KERNEL'S RUN, read: with real logits and labels in range, every weakly fair execution ends with the result
    buffer at the mean of the column of row losses and the arguments unchanged. -/
theorem run (ρ : Dev nD → PrngReg) (XR : Dev nD → ℕ → ℕ → ℝ) (TR : Dev nD → ℕ → ℕ)
    (hX : ∀ (c : Dev nD) (r : Fin 8192) (k : Fin 32000),
      m ((c : Thread nD τ).loc main_arg0) (ix2 r k) = ((XR c r.val k.val : ℝ) : EReal))
    (hT : ∀ (c : Dev nD) (r : Fin 8192), TR c r.val < 32000
      ∧ m ((c : Thread nD τ).loc main_arg1) (ix1 r) = BitVec.ofNat 32 (TR c r.val)) :
    θ_run defs (onTc (τ := τ) (main (F := Ideal))) ⟨m, fun _ => 0, ρ⟩ fun r => ∀ c : Dev nD,
      r.2.mem ((c.tc : Thread nD τ).loc main_v3) = tailOf (lossArr c (XR c) (TR c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have hX' : ∀ (c : Dev nD) (r : Fin 8192) (k : Fin 32000), xarr m c (ix2 r k) = ((XR c r.val k.val : ℝ) : EReal) :=
    fun c r k => by
      show V m c main_arg0 (ix2 r k) = _
      rw [V_main_arg0 m c]; exact hX c r k
  have hT' : ∀ (c : Dev nD) (r : Fin 8192), TR c r.val < 32000
      ∧ tarr m c (ix2 r (0 : Fin 1)) = BitVec.ofNat 32 (TR c r.val) :=
    fun c r => ⟨(hT c r).1, (tarr_eq m c r).trans (hT c r).2⟩
  exact (θ_run defs _ _).mono (fun _ h c =>
    ⟨((h c).2 main_v3 (Pipeline.mem_restRefs_of main_v3 (by decide) (by decide))).trans
        (tail_val m c (XR c) (TR c) (hX' c) (hT' c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KArray

end
-- ==== Proof.SumRows.lean ====
/-
  Sums over the rows of a column and of a vector.

  A sum over the index set of an [n, 1] column, and a sum over the index set of a vector [n], are both the sum over
  the n rows.
-/
import Idealize.ShloMosaic.Lib.ValueIdx
import Mathlib.Algebra.BigOperators.Fin

noncomputable section

namespace Cert.SumRows

open Idealize.ShloMosaic Idealize.ShloMosaic.ValueIdx
open scoped BigOperators

/-- The index set of a vector [n] is its one coordinate's range. -/
private def idxEquiv1 (n : ℕ) : (⟨1, ![n]⟩ : Shape).Idx ≃ Fin n where
  toFun i := i 0
  invFun r := ix1 r
  left_inv i := (eq_ix1 i).symm
  right_inv _ := rfl

/-- A sum over an [n, 1] column is the sum over its rows. -/
theorem sum_col {n : ℕ} (f : (⟨2, ![n, 1]⟩ : Shape).Idx → EReal) (g : Fin n → EReal)
    (h : ∀ r : Fin n, f (ix2 r (0 : Fin 1)) = g r) : ∑ i, f i = ∑ r, g r := by
  rw [sum_idx2 f]
  refine Finset.sum_congr rfl fun r _ => ?_
  rw [Fin.sum_univ_one]
  exact h r

/-- A sum over a vector [n] is the sum over its entries. -/
theorem sum_vec {n : ℕ} (f : (⟨1, ![n]⟩ : Shape).Idx → EReal) (g : Fin n → EReal)
    (h : ∀ r : Fin n, f (ix1 r) = g r) : ∑ i, f i = ∑ r, g r := by
  refine Fintype.sum_equiv (idxEquiv1 n) f g fun i => ?_
  exact (congrArg f (eq_ix1 i)).trans (h (i 0))

end Cert.SumRows

end
-- ==== Proof.Mean.lean ====
/-
  The mean of a column and the mean of a vector with the same rows.

  At the ideal values the host's sum of an [8192, 1] column over both axes, and its sum of a vector [8192] over its one
  axis, are the initial value plus the sum of the entries; with the same 8192 entries, the same initial word and the
  same divisor the two means are one number.
-/
import proofs.«408673_j82102594830633_3_alg».proof.Proof.SumRows
import Idealize.ShloMosaic.Lib.ValueIdx
import Idealize.ShloMosaic.PureOps.Ideal.Laws

noncomputable section

namespace Cert.Mean

open Idealize.ShloMosaic Idealize.ShloMosaic.ValueIdx

abbrev Scol : Shape := ⟨2, ![8192, 1]⟩
abbrev Svec : Shape := ⟨1, ![8192]⟩
abbrev Ssca : Shape := ⟨0, ![]⟩

/-- The host's float sum into a scalar is the initial value plus the sum of every entry. -/
theorem reduceAdd_total {s : Shape} {axes : List (Fin s.rank)} (x : FVec Ideal s .f32) (v : FVec Ideal Ssca .f32)
    (h : s.ReducesTo axes Ssca) (hS : 0 < Ssca.numel) (i : Ssca.Idx) :
    Host.reduceAdd (F := Ideal) x v h hS i = v (Shape.Idx.first hS) + ∑ j : s.Idx, x j := by
  simp only [Host.reduceAdd, Ideal.hostReduceAdd_def]
  exact Ideal.hostReduceAdd_total h (fun b => b.elim0) x _ i

/-- A column and a vector with the same rows have the same mean. -/
theorem mean_eq (L : Fin 8192 → EReal) (A : FVec Ideal Scol .f32) (B : FVec Ideal Svec .f32)
    (hA : ∀ r : Fin 8192, A (ix2 r (0 : Fin 1)) = L r) (hB : ∀ r : Fin 8192, B (ix1 r) = L r)
    (h1 : Scol.ReducesTo [0, 1] Ssca) (h2 : Svec.ReducesTo [0] Ssca) (hS hS' : 0 < Ssca.numel) (w0 w1 : BitVec 32) :
    Host.divf (F := Ideal) (Host.reduceAdd (F := Ideal) A (constant (F := Ideal) Ssca .f32 w0) h1 hS) (constant (F := Ideal) Ssca .f32 w1)
      = Host.divf (F := Ideal) (Host.reduceAdd (F := Ideal) B (constant (F := Ideal) Ssca .f32 w0) h2 hS') (constant (F := Ideal) Ssca .f32 w1) := by
  funext i
  show FloatOps.hostDivf (Host.reduceAdd (F := Ideal) A (constant (F := Ideal) Ssca .f32 w0) h1 hS i) _
    = FloatOps.hostDivf (Host.reduceAdd (F := Ideal) B (constant (F := Ideal) Ssca .f32 w0) h2 hS' i) _
  rw [reduceAdd_total A _ h1 hS i, reduceAdd_total B _ h2 hS' i, Cert.SumRows.sum_col A L hA, Cert.SumRows.sum_vec B L hB]

end Cert.Mean

end
-- ==== Proof.lean ====
/-
  The punitive cross-entropy: the single-pass kernel against the plain log-softmax reference, over the reals.

  Inputs: logits x : [8192, 32000] and labels t : [8192]. Per row both programs compute
      loss = -(x_t - Z) + w · ((n - 2 + Σ_c p_c²) - (1 - p_t)²),   Z = log Σ_c exp (x_c),  p_c = exp (x_c - Z),  n = 32000,
  w the f32 word of one tenth, and return the mean over the rows. The reference shifts by the row maximum and sums
  (1 - p_c)² class by class; the kernel walks the row once in 25 blocks of 1280 columns keeping, relative to a moving
  shift m, the sums Σ exp (x - m) and Σ exp (x - m)² and the label's logit, and closes with n - 2 + s2 / s1² in place of
  the class-by-class sum, which is the same number because the probabilities sum to one. Over the reals the moving
  shift cancels exactly, whatever finite value it starts from.

  The statement holds for finite logits (a precondition of the claim as generated) and for labels in their range
  0 ≤ t < 32000: outside it the reference's indexing wraps or clamps the label while the kernel's compare-and-sum
  picks nothing, so the claim is stated on the labels' range.
-/
import proofs.«408673_j82102594830633_3_alg».proof.Defs
import proofs.«408673_j82102594830633_3_alg».proof.Proof.Gen.Kernel
import proofs.«408673_j82102594830633_3_alg».proof.Proof.Gen.Kernel.Skeleton
import proofs.«408673_j82102594830633_3_alg».proof.Proof.Gen.Kernel.Loops
import proofs.«408673_j82102594830633_3_alg».proof.Proof.Gen.Kernel.Launch
import proofs.«408673_j82102594830633_3_alg».proof.Proof.Gen.Kernel.Points
import proofs.«408673_j82102594830633_3_alg».proof.Proof.Gen.Kernel.Frame
import proofs.«408673_j82102594830633_3_alg».proof.Proof.Gen.KernelIdeal
import proofs.«408673_j82102594830633_3_alg».proof.Proof.Gen.KernelIdeal.Skeleton
import proofs.«408673_j82102594830633_3_alg».proof.Proof.Gen.KernelIdeal.Loops
import proofs.«408673_j82102594830633_3_alg».proof.Proof.Gen.KernelIdeal.Launch
import proofs.«408673_j82102594830633_3_alg».proof.Proof.Gen.KernelIdeal.Points
import proofs.«408673_j82102594830633_3_alg».proof.Proof.Gen.KernelIdeal.Frame
import proofs.«408673_j82102594830633_3_alg».proof.Proof.Gen.ReferenceIdeal
import proofs.«408673_j82102594830633_3_alg».proof.Proof.Gen.Pre_finite_inputs
import proofs.«408673_j82102594830633_3_alg».proof.Proof.RefRunPatched
import proofs.«408673_j82102594830633_3_alg».proof.Proof.RefReadPatched
import proofs.«408673_j82102594830633_3_alg».proof.Proof.RefRow
import proofs.«408673_j82102594830633_3_alg».proof.Proof.PreDecode
import proofs.«408673_j82102594830633_3_alg».proof.Proof.KArray
import proofs.«408673_j82102594830633_3_alg».proof.Proof.Mean
import Idealize.ShloMosaic.Adequacy
import Idealize.ShloMosaic.Init

set_option maxRecDepth 65536

noncomputable section

namespace Cert.Proof

open Idealize.ShloMosaic Idealize.ShloMosaic.TcCoe Idealize.ShloMosaic.ValueIdx Idealize.SL.Sem Punitive

/-! ### The inputs as real numbers and natural numbers -/

/-- The logits as reals (zero outside the array). -/
def XRof (x0 : FVec Ideal Cert.Pre_finite_inputs.S8192x32000 .f32) (r k : ℕ) : ℝ :=
  if h : r < 8192 ∧ k < 32000 then (x0 (ix2 (⟨r, h.1⟩ : Fin 8192) (⟨k, h.2⟩ : Fin 32000))).toReal else 0

/-- The labels as natural numbers (zero outside the array). -/
def TRof (x1 : IVec Cert.Pre_finite_inputs.S8192 32) (r : ℕ) : ℕ :=
  if h : r < 8192 then (x1 (ix1 (⟨r, h⟩ : Fin 8192))).toNat else 0

theorem XRof_spec (x0 : FVec Ideal Cert.Pre_finite_inputs.S8192x32000 .f32)
    (hfin : ∀ i : Cert.Pre_finite_inputs.S8192x32000.Idx, ∃ r : ℝ, x0 i = ((r : ℝ) : EReal)) (r : Fin 8192) (k : Fin 32000) :
    x0 (ix2 r k) = ((XRof x0 r.val k.val : ℝ) : EReal) := by
  obtain ⟨x, hx⟩ := hfin (ix2 r k)
  unfold XRof
  rw [dif_pos ⟨r.isLt, k.isLt⟩]
  show x0 (ix2 r k) = (((x0 (ix2 r k)).toReal : ℝ) : EReal)
  rw [hx, EReal.toReal_coe]

theorem TRof_spec (x1 : IVec Cert.Pre_finite_inputs.S8192 32)
    (hlab : ∀ i : Cert.Pre_finite_inputs.S8192.Idx, ∃ t : ℕ, t < 32000 ∧ x1 i = BitVec.ofNat 32 t) (r : Fin 8192) :
    TRof x1 r.val < 32000 ∧ x1 (ix1 r) = BitVec.ofNat 32 (TRof x1 r.val) := by
  obtain ⟨t, ht, hx⟩ := hlab (ix1 r)
  have e : TRof x1 r.val = t := by
    unfold TRof
    rw [dif_pos r.isLt]
    show (x1 (ix1 r)).toNat = t
    rw [hx, BitVec.toNat_ofNat]
    exact Nat.mod_eq_of_lt (by omega)
  rw [e]
  exact ⟨ht, hx⟩

/-! ### The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.PValue.run (F := Ideal) m ρ)

/-- With finite logits and labels in range, both programs end at the mean of the row losses. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hd := fun c : Dev Cert.KernelIdeal.nD => Cert.PreDecode.decode
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (hpre c)
  have hX := fun (c : Dev Cert.KernelIdeal.nD) => XRof_spec _ (hd c).1
  have hT := fun (c : Dev Cert.KernelIdeal.nD) => TRof_spec _ (hd c).2
  refine ⟨_, Cert.KernelIdeal.KArray.run m ρ
    (fun c => XRof (m ((c.tc : Thread Cert.KernelIdeal.nD Cert.KernelIdeal.τ).loc Cert.KernelIdeal.main_arg0)))
    (fun c => TRof (m ((c.tc : Thread Cert.KernelIdeal.nD Cert.KernelIdeal.τ).loc Cert.KernelIdeal.main_arg1)))
    hX hT, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v31_eq, (hagree c).1, (hagree c).2]
  exact (Cert.Mean.mean_eq
    (fun r => ((rowLoss w01 (XRof (m ((c.tc : Thread Cert.KernelIdeal.nD Cert.KernelIdeal.τ).loc Cert.KernelIdeal.main_arg0)) r.val) 32000
      (TRof (m ((c.tc : Thread Cert.KernelIdeal.nD Cert.KernelIdeal.τ).loc Cert.KernelIdeal.main_arg1)) r.val) : ℝ) : EReal))
    _ _ (fun r => rfl)
    (fun r => Cert.ReferenceIdeal.RefRow.row_loss _ _ _ _ (fun r k => hX c r k) (fun r => hT c r) r)
    _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
